-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096 : Shape := ⟨2, ![4, 4096]⟩
abbrev S512x11008 : Shape := ⟨2, ![512, 11008]⟩
abbrev S32x11008 : Shape := ⟨2, ![32, 11008]⟩
abbrev S_ : Shape := ⟨0, ![]⟩

class Facts : Prop where
  bcast_S_S4x4096 : S_.BroadcastsInDim S4x4096 (![] : Fin 0 → Fin S4x4096.rank)
  reducesTo_S4x4096_S_d0_1 : S4x4096.ReducesTo [0, 1] S_
  h_S_ : 0 < S_.numel
  bcast_S_S32x11008 : S_.BroadcastsInDim S32x11008 (![] : Fin 0 → Fin S32x11008.rank)
  reducesTo_S32x11008_S_d0_1 : S32x11008.ReducesTo [0, 1] S_

variable [Facts]

def fn {F : FTy → Type} [FloatOps F] (main_arg0 : FVec F S4x4096 .f32) (main_arg1 : IVec S512x11008 32) (main_arg2 : FVec F S32x11008 .f32) (main_arg3 : FVec F S32x11008 .f32) : IVec S_ 1 :=
  let main_v0 : FVec F S4x4096 .f32 := Host.absf main_arg0
  let main_cst : FVec F S_ .f32 := constant S_ .f32 0x7F800000#32
  let main_v1 : FVec F S4x4096 .f32 := broadcastInDim S4x4096 ![] bcast_S_S4x4096 main_cst
  let main_v2 : IVec S4x4096 1 := cmpf .olt main_v0 main_v1
  let main_c : IVec S_ 1 := constantI S_ 1 1#1
  let main_v3 : IVec S_ 1 := (fun x v => Host.reduce IntOp.andi x v reducesTo_S4x4096_S_d0_1 h_S_) main_v2 main_c
  let main_v4 : FVec F S32x11008 .f32 := Host.absf main_arg2
  let main_cst_0 : FVec F S_ .f32 := constant S_ .f32 0x7F800000#32
  let main_v5 : FVec F S32x11008 .f32 := broadcastInDim S32x11008 ![] bcast_S_S32x11008 main_cst_0
  let main_v6 : IVec S32x11008 1 := cmpf .olt main_v4 main_v5
  let main_c_1 : IVec S_ 1 := constantI S_ 1 1#1
  let main_v7 : IVec S_ 1 := (fun x v => Host.reduce IntOp.andi x v reducesTo_S32x11008_S_d0_1 h_S_) main_v6 main_c_1
  let main_v8 : IVec S_ 1 := andi main_v3 main_v7
  let main_v9 : FVec F S32x11008 .f32 := Host.absf main_arg3
  let main_cst_2 : FVec F S_ .f32 := constant S_ .f32 0x7F800000#32
  let main_v10 : FVec F S32x11008 .f32 := broadcastInDim S32x11008 ![] bcast_S_S32x11008 main_cst_2
  let main_v11 : IVec S32x11008 1 := cmpf .olt main_v9 main_v10
  let main_c_3 : IVec S_ 1 := constantI S_ 1 1#1
  let main_v12 : IVec S_ 1 := (fun x v => Host.reduce IntOp.andi x v reducesTo_S32x11008_S_d0_1 h_S_) main_v11 main_c_3
  let main_v13 : IVec S_ 1 := andi main_v8 main_v12
  main_v13
-- ==== Kernel.lean ====
abbrev S4x4096 : Shape := ⟨2, ![4, 4096]⟩
abbrev S512x11008 : Shape := ⟨2, ![512, 11008]⟩
abbrev S32x11008 : Shape := ⟨2, ![32, 11008]⟩
abbrev S4x32x128 : Shape := ⟨3, ![4, 32, 128]⟩
abbrev S_ : Shape := ⟨0, ![]⟩
abbrev S4x32 : Shape := ⟨2, ![4, 32]⟩
abbrev S4x11008 : Shape := ⟨2, ![4, 11008]⟩
abbrev S512x256 : Shape := ⟨2, ![512, 256]⟩
abbrev S32x256 : Shape := ⟨2, ![32, 256]⟩
abbrev S4x256 : Shape := ⟨2, ![4, 256]⟩
abbrev S1x8x1 : Shape := ⟨3, ![1, 8, 1]⟩
abbrev S128x256 : Shape := ⟨2, ![128, 256]⟩
abbrev S8x256 : Shape := ⟨2, ![8, 256]⟩
abbrev S4x1024 : Shape := ⟨2, ![4, 1024]⟩
abbrev S128x1x256 : Shape := ⟨3, ![128, 1, 256]⟩
abbrev S128x8x256 : Shape := ⟨3, ![128, 8, 256]⟩
abbrev S8x128x256 : Shape := ⟨3, ![8, 128, 256]⟩
abbrev S4x8x128 : Shape := ⟨3, ![4, 8, 128]⟩
abbrev S4x1x128 : Shape := ⟨3, ![4, 1, 128]⟩
abbrev S4x128 : Shape := ⟨2, ![4, 128]⟩
abbrev S1x128x256 : Shape := ⟨3, ![1, 128, 256]⟩
abbrev S1x256 : Shape := ⟨2, ![1, 256]⟩

abbrev nBuf : Space → Nat
  | .hbm => 9
  | .vmem => 9
  | .smem => 0
  | _ => 0

abbrev bufTy : (tb : Table) → Fin (tcTables nBuf tb) → BufTy
  | .hbm, ⟨0, _⟩ => ⟨S4x4096, .f32⟩
  | .hbm, ⟨1, _⟩ => ⟨S512x11008, .i32⟩
  | .hbm, ⟨2, _⟩ => ⟨S32x11008, .f32⟩
  | .hbm, ⟨3, _⟩ => ⟨S32x11008, .f32⟩
  | .hbm, ⟨4, _⟩ => ⟨S4x32x128, .f32⟩
  | .hbm, ⟨5, _⟩ => ⟨S_, .f32⟩
  | .hbm, ⟨6, _⟩ => ⟨S4x32, .f32⟩
  | .hbm, ⟨7, _⟩ => ⟨S4x11008, .f32⟩
  | .hbm, ⟨8, _⟩ => ⟨S4x11008, .f32⟩
  | .local _ .vmem, ⟨0, _⟩ => ⟨S4x4096, .f32⟩
  | .local _ .vmem, ⟨1, _⟩ => ⟨S512x256, .i32⟩
  | .local _ .vmem, ⟨2, _⟩ => ⟨S512x256, .i32⟩
  | .local _ .vmem, ⟨3, _⟩ => ⟨S32x256, .f32⟩
  | .local _ .vmem, ⟨4, _⟩ => ⟨S32x256, .f32⟩
  | .local _ .vmem, ⟨5, _⟩ => ⟨S4x256, .f32⟩
  | .local _ .vmem, ⟨6, _⟩ => ⟨S4x256, .f32⟩
  | .local _ .vmem, ⟨7, _⟩ => ⟨S4x256, .f32⟩
  | .local _ .vmem, ⟨8, _⟩ => ⟨S4x256, .f32⟩
  | _, _ => ⟨S4x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S4x4096_S4x32x128 : S4x4096.ShapeCasts S4x32x128
  reducesTo_S4x32x128_S4x32_d2 : S4x32x128.ReducesTo [2] S4x32
  h_S_ : 0 < S_.numel
  iota_S1x8x1_d1_w32 : S1x8x1.Iotas .tc 32 [1]
  inb_S512x256_S128x256_0_0 : ∀ a, (![0, 0] : Fin 2 → Nat) a + S128x256.size a ≤ S512x256.size a
  h_S128x256 : 0 < S128x256.numel
  inb_S32x256_S8x256_0_0 : ∀ a, (![0, 0] : Fin 2 → Nat) a + S8x256.size a ≤ S32x256.size a
  h_S8x256 : 0 < S8x256.numel
  inb_S4x4096_S4x1024_0_0 : ∀ a, (![0, 0] : Fin 2 → Nat) a + S4x1024.size a ≤ S4x4096.size a
  h_S4x1024 : 0 < S4x1024.numel
  shapeCasts_S128x256_S128x1x256 : S128x256.ShapeCasts S128x1x256
  broadcasts_S128x1x256_S128x8x256 : S128x1x256.Broadcasts S128x8x256
  broadcasts_S1x8x1_S128x8x256 : S1x8x1.Broadcasts S128x8x256
  shapeCasts_S128x8x256_S8x128x256 : S128x8x256.ShapeCasts S8x128x256
  bitsLt_bf16_f32 : FTy.bits .bf16 < FTy.bits .f32
  shapeCasts_S4x1024_S4x8x128 : S4x1024.ShapeCasts S4x8x128
  slices_S4x8x128_o0_0_0_S4x1x128 : S4x8x128.Slices ![0, 0, 0] S4x1x128
  shapeCasts_S4x1x128_S4x128 : S4x1x128.ShapeCasts S4x128
  slices_S8x128x256_o0_0_0_S1x128x256 : S8x128x256.Slices ![0, 0, 0] S1x128x256
  shapeCasts_S1x128x256_S128x256 : S1x128x256.ShapeCasts S128x256
  slices_S8x256_o0_0_S1x256 : S8x256.Slices ![0, 0] S1x256
  broadcasts_S1x256_S4x256 : S1x256.Broadcasts S4x256
  slices_S4x8x128_o0_1_0_S4x1x128 : S4x8x128.Slices ![0, 1, 0] S4x1x128
  slices_S8x128x256_o1_0_0_S1x128x256 : S8x128x256.Slices ![1, 0, 0] S1x128x256
  slices_S8x256_o1_0_S1x256 : S8x256.Slices ![1, 0] S1x256
  slices_S4x8x128_o0_2_0_S4x1x128 : S4x8x128.Slices ![0, 2, 0] S4x1x128
  slices_S8x128x256_o2_0_0_S1x128x256 : S8x128x256.Slices ![2, 0, 0] S1x128x256
  slices_S8x256_o2_0_S1x256 : S8x256.Slices ![2, 0] S1x256
  slices_S4x8x128_o0_3_0_S4x1x128 : S4x8x128.Slices ![0, 3, 0] S4x1x128
  slices_S8x128x256_o3_0_0_S1x128x256 : S8x128x256.Slices ![3, 0, 0] S1x128x256
  slices_S8x256_o3_0_S1x256 : S8x256.Slices ![3, 0] S1x256
  slices_S4x8x128_o0_4_0_S4x1x128 : S4x8x128.Slices ![0, 4, 0] S4x1x128
  slices_S8x128x256_o4_0_0_S1x128x256 : S8x128x256.Slices ![4, 0, 0] S1x128x256
  slices_S8x256_o4_0_S1x256 : S8x256.Slices ![4, 0] S1x256
  slices_S4x8x128_o0_5_0_S4x1x128 : S4x8x128.Slices ![0, 5, 0] S4x1x128
  slices_S8x128x256_o5_0_0_S1x128x256 : S8x128x256.Slices ![5, 0, 0] S1x128x256
  slices_S8x256_o5_0_S1x256 : S8x256.Slices ![5, 0] S1x256
  slices_S4x8x128_o0_6_0_S4x1x128 : S4x8x128.Slices ![0, 6, 0] S4x1x128
  slices_S8x128x256_o6_0_0_S1x128x256 : S8x128x256.Slices ![6, 0, 0] S1x128x256
  slices_S8x256_o6_0_S1x256 : S8x256.Slices ![6, 0] S1x256
  slices_S4x8x128_o0_7_0_S4x1x128 : S4x8x128.Slices ![0, 7, 0] S4x1x128
  slices_S8x128x256_o7_0_0_S1x128x256 : S8x128x256.Slices ![7, 0, 0] S1x128x256
  slices_S8x256_o7_0_S1x256 : S8x256.Slices ![7, 0] S1x256
  inb_S512x256_S128x256_128_0 : ∀ a, (![128, 0] : Fin 2 → Nat) a + S128x256.size a ≤ S512x256.size a
  inb_S32x256_S8x256_8_0 : ∀ a, (![8, 0] : Fin 2 → Nat) a + S8x256.size a ≤ S32x256.size a
  inb_S4x4096_S4x1024_0_1024 : ∀ a, (![0, 1024] : Fin 2 → Nat) a + S4x1024.size a ≤ S4x4096.size a
  inb_S512x256_S128x256_256_0 : ∀ a, (![256, 0] : Fin 2 → Nat) a + S128x256.size a ≤ S512x256.size a
  inb_S32x256_S8x256_16_0 : ∀ a, (![16, 0] : Fin 2 → Nat) a + S8x256.size a ≤ S32x256.size a
  inb_S4x4096_S4x1024_0_2048 : ∀ a, (![0, 2048] : Fin 2 → Nat) a + S4x1024.size a ≤ S4x4096.size a
  inb_S512x256_S128x256_384_0 : ∀ a, (![384, 0] : Fin 2 → Nat) a + S128x256.size a ≤ S512x256.size a
  inb_S32x256_S8x256_24_0 : ∀ a, (![24, 0] : Fin 2 → Nat) a + S8x256.size a ≤ S32x256.size a
  inb_S4x4096_S4x1024_0_3072 : ∀ a, (![0, 3072] : Fin 2 → Nat) a + S4x1024.size a ≤ S4x4096.size a
  inb_S4x256_S4x256_0_0 : ∀ a, (![0, 0] : Fin 2 → Nat) a + S4x256.size a ≤ S4x256.size a
  h_S4x256 : 0 < S4x256.numel
  shapeCasts_S4x256_S4x256 : S4x256.ShapeCasts S4x256
  dot_S4x32_S32x11008_S4x11008_1_0_0_1_n_n_wf : DotDims.WF S4x32 S32x11008 S4x11008 [1] [0] [0] [1] [] []
  dot_S4x128_S128x256_S4x256_1_0_0_1_n_n_wf : DotDims.WF S4x128 S128x256 S4x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4x4096.size a ≤ S4x4096.size a
  hwx0_0 : ∀ i : grid0.Coords, EltTy.bits .f32 = 32 ∨ (Rect.block (s := S4x4096) S4x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x11008.size a
  hwx0_1 : ∀ i : grid0.Coords, EltTy.bits .i32 = 32 ∨ (Rect.block (s := S512x11008) S512x256.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x256.size a ≤ S32x11008.size a
  hwx0_2 : ∀ i : grid0.Coords, EltTy.bits .f32 = 32 ∨ (Rect.block (s := S32x11008) S32x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x256.size a ≤ S4x11008.size a
  hwx0_3 : ∀ i : grid0.Coords, EltTy.bits .f32 = 32 ∨ (Rect.block (s := S4x11008) S4x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x256.size a ≤ S4x11008.size a
  hwx0_4 : ∀ i : grid0.Coords, EltTy.bits .f32 = 32 ∨ (Rect.block (s := S4x11008) S4x256.size (cc0_transform_4 i) (hinb0_4 i)).WholeWords (EltTy.packing .f32)

variable [Facts₀]

def dot_S4x32_S32x11008_S4x11008_1_0_0_1_n_n : DotDims S4x32 S32x11008 S4x11008 where
  lhsContracting := [1]
  rhsContracting := [0]
  lhsNonContracting := [0]
  rhsNonContracting := [1]
  lhsBatch := []
  rhsBatch := []
  wf := dot_S4x32_S32x11008_S4x11008_1_0_0_1_n_n_wf
def dot_S4x128_S128x256_S4x256_1_0_0_1_n_n : DotDims S4x128 S128x256 S4x256 where
  lhsContracting := [1]
  rhsContracting := [0]
  lhsNonContracting := [0]
  rhsNonContracting := [1]
  lhsBatch := []
  rhsBatch := []
  wf := dot_S4x128_S128x256_S4x256_1_0_0_1_n_n_wf

abbrev win0_0 : Pipeline.Window sig grid0 :=
  Pipeline.Window.ofSpec (Memref.whole main_arg0) S4x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S4x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S4x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x4096 : Shape := ⟨2, ![4, 4096]⟩
abbrev S512x11008 : Shape := ⟨2, ![512, 11008]⟩
abbrev S32x11008 : Shape := ⟨2, ![32, 11008]⟩
abbrev S8 : Shape := ⟨1, ![8]⟩
abbrev S_ : Shape := ⟨0, ![]⟩
abbrev S512x1x11008 : Shape := ⟨3, ![512, 1, 11008]⟩
abbrev S1x8x1 : Shape := ⟨3, ![1, 8, 1]⟩
abbrev S512x8x11008 : Shape := ⟨3, ![512, 8, 11008]⟩
abbrev S4096x11008 : Shape := ⟨2, ![4096, 11008]⟩
abbrev S32x128x11008 : Shape := ⟨3, ![32, 128, 11008]⟩
abbrev S4x11008 : Shape := ⟨2, ![4, 11008]⟩

abbrev nBuf : Space → Nat
  | .hbm => 28
  | .vmem => 0
  | .smem => 0
  | _ => 0

abbrev bufTy : (tb : Table) → Fin (tcTables nBuf tb) → BufTy
  | .hbm, ⟨0, _⟩ => ⟨S4x4096, .f32⟩
  | .hbm, ⟨1, _⟩ => ⟨S512x11008, .i32⟩
  | .hbm, ⟨2, _⟩ => ⟨S32x11008, .f32⟩
  | .hbm, ⟨3, _⟩ => ⟨S32x11008, .f32⟩
  | .hbm, ⟨4, _⟩ => ⟨S8, .i32⟩
  | .hbm, ⟨5, _⟩ => ⟨S_, .i32⟩
  | .hbm, ⟨6, _⟩ => ⟨S8, .i32⟩
  | .hbm, ⟨7, _⟩ => ⟨S8, .i32⟩
  | .hbm, ⟨8, _⟩ => ⟨S_, .i32⟩
  | .hbm, ⟨9, _⟩ => ⟨S8, .i32⟩
  | .hbm, ⟨10, _⟩ => ⟨S8, .i32⟩
  | .hbm, ⟨11, _⟩ => ⟨S512x1x11008, .i32⟩
  | .hbm, ⟨12, _⟩ => ⟨S1x8x1, .i32⟩
  | .hbm, ⟨13, _⟩ => ⟨S512x8x11008, .i32⟩
  | .hbm, ⟨14, _⟩ => ⟨S512x8x11008, .i32⟩
  | .hbm, ⟨15, _⟩ => ⟨S512x8x11008, .i32⟩
  | .hbm, ⟨16, _⟩ => ⟨S_, .i32⟩
  | .hbm, ⟨17, _⟩ => ⟨S512x8x11008, .i32⟩
  | .hbm, ⟨18, _⟩ => ⟨S512x8x11008, .i32⟩
  | .hbm, ⟨19, _⟩ => ⟨S4096x11008, .i32⟩
  | .hbm, ⟨20, _⟩ => ⟨S4096x11008, .f32⟩
  | .hbm, ⟨21, _⟩ => ⟨S32x128x11008, .f32⟩
  | .hbm, ⟨22, _⟩ => ⟨S4096x11008, .f32⟩
  | .hbm, ⟨23, _⟩ => ⟨S32x128x11008, .f32⟩
  | .hbm, ⟨24, _⟩ => ⟨S4096x11008, .f32⟩
  | .hbm, ⟨25, _⟩ => ⟨S4096x11008, .f32⟩
  | .hbm, ⟨26, _⟩ => ⟨S4096x11008, .f32⟩
  | .hbm, ⟨27, _⟩ => ⟨S4x11008, .f32⟩
  | _, _ => ⟨S4x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S512x11008_S512x1x11008_0_2 : S512x11008.BroadcastsInDim S512x1x11008 (![0, 2] : Fin 2 → Fin S512x1x11008.rank)
  bcast_S8_S1x8x1_1 : S8.BroadcastsInDim S1x8x1 (![1] : Fin 1 → Fin S1x8x1.rank)
  bcast_S512x1x11008_S512x8x11008_0_1_2 : S512x1x11008.BroadcastsInDim S512x8x11008 (![0, 1, 2] : Fin 3 → Fin S512x8x11008.rank)
  bcast_S1x8x1_S512x8x11008_0_1_2 : S1x8x1.BroadcastsInDim S512x8x11008 (![0, 1, 2] : Fin 3 → Fin S512x8x11008.rank)
  bcast_S_S512x8x11008 : S_.BroadcastsInDim S512x8x11008 (![] : Fin 0 → Fin S512x8x11008.rank)
  shapeCasts_S512x8x11008_S4096x11008 : S512x8x11008.ShapeCasts S4096x11008
  bcast_S32x11008_S32x128x11008_0_2 : S32x11008.BroadcastsInDim S32x128x11008 (![0, 2] : Fin 2 → Fin S32x128x11008.rank)
  shapeCasts_S32x128x11008_S4096x11008 : S32x128x11008.ShapeCasts S4096x11008
  dot_S4x4096_S4096x11008_S4x11008_1_0_0_1_n_n_wf : DotDims.WF S4x4096 S4096x11008 S4x11008 [1] [0] [0] [1] [] []

variable [Facts₀]

def dot_S4x4096_S4096x11008_S4x11008_1_0_0_1_n_n : DotDims S4x4096 S4096x11008 S4x11008 where
  lhsContracting := [1]
  rhsContracting := [0]
  lhsNonContracting := [0]
  rhsNonContracting := [1]
  lhsBatch := []
  rhsBatch := []
  wf := dot_S4x4096_S4096x11008_S4x11008_1_0_0_1_n_n_wf

class Facts : Prop extends Facts₀ where

variable [Facts]
-- ==== Proof.Spec.lean ====
/-
  What the two programs compute, at one entry of the result.

  A packed word holds eight four-bit fields; field s of word w is (w shifted right arithmetically by 4s) masked
  with 15, read as a number. Input feature k (of 4096) is field k mod 8 of packed row k / 8 and belongs to group
  k / 128, whose scale and zero it shares. For one row of x (a function of k), one column of the packed table
  (a function of the packed row) and the same column of the scale and zero tables (functions of the group):

    * refVal is the sum over k of x(k) · (field(k) · scale(k / 128) − zero(k / 128)): dequantize, then contract;
    * kerVal takes, group by group, the sum over the group's 128 features of x · field, scales that ONE number,
      adds the 32 groups, and subtracts corrVal: the sum over groups of (the group's sum of x) · zero.

  The two are equal when x, the scales and the zeros are real numbers (the law is distributivity, which the
  extended reals lack at the infinities); that law is proved in another module. Nothing here depends on a program.
-/
import Idealize.ShloMosaic.PureOps.Ideal.Laws
import Idealize.ShloMosaic.Lib.ValueIdx

noncomputable section

open scoped BigOperators

namespace Cert.Quant

open Idealize.ShloMosaic Idealize.ShloMosaic.ValueIdx

/-- Field s of the packed word w, as a word: shift right arithmetically by 4s, keep the low four bits. -/
def nibWord (w : BitVec 32) (s : Fin 8) : BitVec 32 :=
  IntOp.andi (IntOp.shrsi .host w (BitVec.ofNat 32 (4 * s.val))) 15#32

/-- The same field as a real number (the word read signed; it lies in 0..15). -/
def nib (w : BitVec 32) (s : Fin 8) : ℝ := ((nibWord w s).toInt : ℝ)

/-- Feature j of group g. -/
def kOf (g : Fin 32) (j : Fin 128) : Fin 4096 := ⟨128 * g.val + j.val, by have := g.isLt; have := j.isLt; omega⟩
/-- The packed row that holds feature k. -/
def rowOf (k : Fin 4096) : Fin 512 := ⟨k.val / 8, by have := k.isLt; omega⟩
/-- The field of that row that holds feature k. -/
def fldOf (k : Fin 4096) : Fin 8 := ⟨k.val % 8, Nat.mod_lt _ (by decide)⟩
/-- The group of feature k. -/
def grpOf (k : Fin 4096) : Fin 32 := ⟨k.val / 128, by have := k.isLt; omega⟩

/-- Dequantize, then contract: the sum over the features of x · (field · scale − zero). -/
def refVal (xr : Fin 4096 → EReal) (wc : Fin 512 → BitVec 32) (sc zc : Fin 32 → EReal) : EReal :=
  ∑ k : Fin 4096, xr k * (((nib (wc (rowOf k)) (fldOf k) : ℝ) : EReal) * sc (grpOf k) - zc (grpOf k))

/-- One group's term: the group's sum of x · field, times the group's scale. -/
def grpTerm (xr : Fin 4096 → EReal) (wc : Fin 512 → BitVec 32) (sc : Fin 32 → EReal) (g : Fin 32) : EReal :=
  (∑ j : Fin 128, xr (kOf g j) * ((nib (wc (rowOf (kOf g j))) (fldOf (kOf g j)) : ℝ) : EReal)) * sc g

/-- The zero correction: the sum over the groups of (zero plus the group's sum of x) · the group's zero. -/
def corrVal (xr : Fin 4096 → EReal) (zc : Fin 32 → EReal) : EReal :=
  ∑ g : Fin 32, (0 + ∑ j : Fin 128, xr (kOf g j)) * zc g

/-- Contract group by group, scale each group's number, subtract the zero correction. -/
def kerVal (xr : Fin 4096 → EReal) (wc : Fin 512 → BitVec 32) (sc zc : Fin 32 → EReal) : EReal :=
  (∑ g : Fin 32, grpTerm xr wc sc g) - corrVal xr zc

/-- The result array, entry (b, n): refVal of row b of x and column n of the three tables. -/
def G (x : (⟨2, ![4, 4096]⟩ : Shape).Idx → EReal) (qw : (⟨2, ![512, 11008]⟩ : Shape).Idx → BitVec 32)
    (sc zr : (⟨2, ![32, 11008]⟩ : Shape).Idx → EReal) : (⟨2, ![4, 11008]⟩ : Shape).Idx → EReal :=
  fun i => refVal (fun k => x (ix2 (⟨(i 0).val, (i 0).isLt⟩ : Fin 4) k))
    (fun r => qw (ix2 r (⟨(i 1).val, (i 1).isLt⟩ : Fin 11008)))
    (fun g => sc (ix2 g (⟨(i 1).val, (i 1).isLt⟩ : Fin 11008)))
    (fun g => zr (ix2 g (⟨(i 1).val, (i 1).isLt⟩ : Fin 11008)))

/-- The zero-correction array, entry (b, n): corrVal of row b of x and column n of the zero table. -/
def corrArr (x : (⟨2, ![4, 4096]⟩ : Shape).Idx → EReal) (zr : (⟨2, ![32, 11008]⟩ : Shape).Idx → EReal) :
    (⟨2, ![4, 11008]⟩ : Shape).Idx → EReal :=
  fun i => corrVal (fun k => x (ix2 (⟨(i 0).val, (i 0).isLt⟩ : Fin 4) k))
    (fun g => zr (ix2 g (⟨(i 1).val, (i 1).isLt⟩ : Fin 11008)))

end Cert.Quant

end
-- ==== Proof.Law.lean ====
/-
  The distributive law behind the two programs: contracting x against the dequantized table (field · scale − zero,
  feature by feature) equals contracting group by group, scaling each group's single number, and subtracting the
  zero correction. Over the reals this is distributivity plus a regrouping of the 4096 features as 32 groups of
  128; the extended reals inherit it wherever x, the scales and the zeros are finite.
-/
import proofs.«419788_j51599737094843_3_alg».proof.Proof.Spec
import Mathlib.Data.EReal.Operations
import Mathlib.Algebra.BigOperators.Ring.Finset
import Mathlib.Algebra.BigOperators.Fin
import Mathlib.Data.Fintype.BigOperators
import Mathlib.Tactic.Ring

noncomputable section

open scoped BigOperators

namespace Cert.Quant

/-- The coercion of the reals into the extended reals commutes with finite sums. -/
theorem coe_finsum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The 4096 features are the 32 groups of 128: (g, j) ↦ 128 g + j is a bijection. -/
def kEquiv : Fin 32 × Fin 128 ≃ Fin 4096 where
  toFun p := kOf p.1 p.2
  invFun k := (grpOf k, ⟨k.val % 128, Nat.mod_lt _ (by decide)⟩)
  left_inv := by
    rintro ⟨g, j⟩
    have hg := g.isLt
    have hj := j.isLt
    refine Prod.ext (Fin.ext ?_) (Fin.ext ?_)
    · show (128 * g.val + j.val) / 128 = g.val
      omega
    · show (128 * g.val + j.val) % 128 = j.val
      omega
  right_inv := by
    intro k
    refine Fin.ext ?_
    show 128 * (k.val / 128) + k.val % 128 = k.val
    omega

/-- The group of feature j of group g is g. -/
theorem grpOf_kOf (g : Fin 32) (j : Fin 128) : grpOf (kOf g j) = g := by
  have hj := j.isLt
  refine Fin.ext ?_
  show (128 * g.val + j.val) / 128 = g.val
  omega

/-- A sum over the features is the double sum over the groups and the features of each group. -/
theorem sum_features (f : Fin 4096 → ℝ) : ∑ k : Fin 4096, f k = ∑ g : Fin 32, ∑ j : Fin 128, f (kOf g j) := by
  rw [← Fintype.sum_prod_type (f := fun p : Fin 32 × Fin 128 => f (kOf p.1 p.2))]
  exact (Fintype.sum_equiv kEquiv (fun p => f (kOf p.1 p.2)) f (fun _ => rfl)).symm

/-- The law over the reals. -/
theorem real_law (x : Fin 4096 → ℝ) (q : Fin 4096 → ℝ) (s z : Fin 32 → ℝ) :
    (∑ g : Fin 32, (∑ j : Fin 128, x (kOf g j) * q (kOf g j)) * s g)
        - ∑ g : Fin 32, (0 + ∑ j : Fin 128, x (kOf g j)) * z g
      = ∑ k : Fin 4096, x k * (q k * s (grpOf k) - z (grpOf k)) := by
  rw [sum_features, ← Finset.sum_sub_distrib]
  refine Finset.sum_congr rfl fun g _ => ?_
  rw [zero_add, Finset.sum_mul, Finset.sum_mul, ← Finset.sum_sub_distrib]
  refine Finset.sum_congr rfl fun j _ => ?_
  rw [grpOf_kOf]
  ring

/-- Group-wise contraction with one scaling per group, minus the zero correction, equals dequantize-then-contract,
for finite x, scales and zeros. -/
theorem kerVal_eq_refVal (xr : Fin 4096 → EReal) (wc : Fin 512 → BitVec 32) (sc zc : Fin 32 → EReal)
    (hx : ∀ k, xr k ≠ ⊤ ∧ xr k ≠ ⊥) (hs : ∀ g, sc g ≠ ⊤ ∧ sc g ≠ ⊥) (hz : ∀ g, zc g ≠ ⊤ ∧ zc g ≠ ⊥) :
    kerVal xr wc sc zc = refVal xr wc sc zc := by
  obtain ⟨x, rfl⟩ : ∃ x : Fin 4096 → ℝ, xr = fun k => ((x k : ℝ) : EReal) :=
    ⟨fun k => (xr k).toReal, funext fun k => (EReal.coe_toReal (hx k).1 (hx k).2).symm⟩
  obtain ⟨s, rfl⟩ : ∃ s : Fin 32 → ℝ, sc = fun g => ((s g : ℝ) : EReal) :=
    ⟨fun g => (sc g).toReal, funext fun g => (EReal.coe_toReal (hs g).1 (hs g).2).symm⟩
  obtain ⟨z, rfl⟩ : ∃ z : Fin 32 → ℝ, zc = fun g => ((z g : ℝ) : EReal) :=
    ⟨fun g => (zc g).toReal, funext fun g => (EReal.coe_toReal (hz g).1 (hz g).2).symm⟩
  have h := congrArg (fun r : ℝ => (r : EReal))
    (real_law x (fun k => nib (wc (rowOf k)) (fldOf k)) s z)
  simp only [EReal.coe_sub, EReal.coe_add, EReal.coe_mul, EReal.coe_zero, coe_finsum] at h
  simpa only [kerVal, refVal, grpTerm, corrVal] using h

end Cert.Quant

end
-- ==== Proof.RefValue.lean ====
/-
  The reference program, read at one entry of its result.

  The reference unpacks field s of packed row r into feature 8r + s (the packed words broadcast against the shift
  amounts 0 + 4 · iota, shifted right arithmetically, masked with 15, and the [512, 8, 11008] array reshaped
  row-major to [4096, 11008]), converts the fields to floats, repeats each scale and zero row over the 128 features
  of its group (a broadcast [32, 11008] → [32, 128, 11008] and a row-major reshape to [4096, 11008]), forms
  field · scale − zero and contracts x against it. Entry (b, n) of the result is therefore refVal of row b of x and
  column n of the three tables: the only work is the row-major index arithmetic of the two reshapes,
      (k · 11008 + n) / 88064 = k / 8,   (k · 11008 + n) / 11008 mod 8 = k mod 8,
      (k · 11008 + n) / 1409024 = k / 128,   (k · 11008 + n) mod 11008 = n      (n < 11008),
  and the shift amount 0 + 4 · s = 4s as 32-bit words.
-/
import proofs.«419788_j51599737094843_3_alg».proof.Proof.Spec
import proofs.«419788_j51599737094843_3_alg».proof.Proof.Gen.ReferenceIdeal.Read

noncomputable section

open scoped BigOperators

namespace Cert.Quant

open Cert.ReferenceIdeal Cert.ReferenceIdeal.Read Idealize.ShloMosaic Idealize.ShloMosaic.ValueIdx

/-- As 32-bit words, 0 + 4 · s is the word 4s, for each of the eight fields. -/
theorem shift_word (s : Fin 8) : (0#32 + 4#32 * BitVec.ofNat 32 s.val : BitVec 32) = BitVec.ofNat 32 (4 * s.val) := by
  revert s; decide

/-- The shift amounts 0 + 4 · iota: entry s is the word 4s. -/
theorem shiftAmt_apply (j : S8.Idx) : val_main_v4 (F := Ideal) j = BitVec.ofNat 32 (4 * (j 0).val) := by
  rw [val_main_v4_apply, val_main_v3_apply, val_main_c_0_apply, val_main_v2_apply, val_main_v1_apply,
    val_main_c_apply, val_main_v0_apply]
  exact shift_word ⟨(j 0).val, (j 0).isLt⟩

/-- The unpacked table at feature k, column n: field k mod 8 of packed row k / 8 of that column. -/
theorem field_apply (x1 : (⟨S512x11008, .i32⟩ : BufTy).Contents (Elt Ideal)) (k : Fin 4096) (n : Fin 11008) :
    val_main_v12 (F := Ideal) x1 (ix2 k n) = nibWord (x1 (ix2 (rowOf k) n)) (fldOf k) := by
  have hk := k.isLt
  have hn := n.isLt
  rw [val_main_v12_apply, val_main_v11_apply, val_main_v9_apply, val_main_v7_apply, val_main_v5_apply,
    val_main_v8_apply, val_main_v6_apply, shiftAmt_apply, val_main_v10_apply, val_main_c_1_apply]
  have e1 : idx_main_v5 (idx_main_v7 (idx_main_v12 (ix2 k n))) = ix2 (rowOf k) n := funext fun a => Fin.ext (by
    match a with
    | ⟨0, _⟩ => show (k.val * 11008 + n.val) / 88064 = k.val / 8; omega
    | ⟨1, _⟩ => show (k.val * 11008 + n.val) % 11008 = n.val; omega)
  have e2 : (idx_main_v6 (idx_main_v8 (idx_main_v12 (ix2 k n))) 0).val = (fldOf k).val := by
    show (k.val * 11008 + n.val) / 11008 % 8 = k.val % 8
    omega
  rw [e1, e2]
  rfl

/-- A [32, 11008] table repeated over its groups' features, at feature k, column n: row k / 128 of that column. -/
theorem scale_apply (x2 : (⟨S32x11008, .f32⟩ : BufTy).Contents (Elt Ideal)) (k : Fin 4096) (n : Fin 11008) :
    val_main_v15 (F := Ideal) x2 (ix2 k n) = x2 (ix2 (grpOf k) n) := by
  have hk := k.isLt
  have hn := n.isLt
  rw [val_main_v15_apply, val_main_v14_apply]
  have e : idx_main_v14 (idx_main_v15 (ix2 k n)) = ix2 (grpOf k) n := funext fun a => Fin.ext (by
    match a with
    | ⟨0, _⟩ => show (k.val * 11008 + n.val) / 1409024 = k.val / 128; omega
    | ⟨1, _⟩ => show (k.val * 11008 + n.val) % 11008 = n.val; omega)
  rw [e]

/-- The same for the zero table. -/
theorem zero_apply (x3 : (⟨S32x11008, .f32⟩ : BufTy).Contents (Elt Ideal)) (k : Fin 4096) (n : Fin 11008) :
    val_main_v17 (F := Ideal) x3 (ix2 k n) = x3 (ix2 (grpOf k) n) := by
  have hk := k.isLt
  have hn := n.isLt
  rw [val_main_v17_apply, val_main_v16_apply]
  have e : idx_main_v16 (idx_main_v17 (ix2 k n)) = ix2 (grpOf k) n := funext fun a => Fin.ext (by
    match a with
    | ⟨0, _⟩ => show (k.val * 11008 + n.val) / 1409024 = k.val / 128; omega
    | ⟨1, _⟩ => show (k.val * 11008 + n.val) % 11008 = n.val; omega)
  rw [e]

/-- The reference's result is G: entry (b, n) is refVal of row b of x and column n of the three tables. -/
theorem ref_eq_G (x0 : (⟨Cert.ReferenceIdeal.S4x4096, .f32⟩ : BufTy).Contents (Elt Ideal))
    (x1 : (⟨Cert.ReferenceIdeal.S512x11008, .i32⟩ : BufTy).Contents (Elt Ideal))
    (x2 x3 : (⟨Cert.ReferenceIdeal.S32x11008, .f32⟩ : BufTy).Contents (Elt Ideal)) :
    Cert.ReferenceIdeal.Read.val_main_v20 (F := Ideal) x0 x1 x2 x3 = G x0 x1 x2 x3 := by
  funext i
  rw [val_main_v20_apply]
  show _ = refVal _ _ _ _
  unfold refVal
  refine Finset.sum_congr rfl fun k _ => ?_
  have el : lidx_main_v20 i k = ix2 (⟨(i 0).val, (i 0).isLt⟩ : Fin 4) k :=
    funext fun a => by match a with | ⟨0, _⟩ => rfl | ⟨1, _⟩ => rfl
  have er : ridx_main_v20 i k = ix2 k (⟨(i 1).val, (i 1).isLt⟩ : Fin 11008) :=
    funext fun a => by match a with | ⟨0, _⟩ => rfl | ⟨1, _⟩ => rfl
  rw [el, er, val_main_v19_apply, val_main_v18_apply, val_main_v13_apply, field_apply, scale_apply, zero_apply]
  rfl

end Cert.Quant

end
-- ==== Proof.Finite.lean ====
/-
  The precondition read back: every float input is finite.

  The precondition is the conjunction of three statements of the form "every entry a of the array has |a| < +∞",
  one for x, one for the scales and one for the zeros; each is a conjunction over all entries, taken from the
  truth value 1. A conjunction that came out 1 had every conjunct 1. On the extended reals |a| is max a (−a),
  and the word of +∞ denotes ⊤; max a (−a) < ⊤ excludes a = ⊤ (then a itself is ⊤) and a = ⊥ (then −a is ⊤).
-/
import proofs.«419788_j51599737094843_3_alg».proof.Defs
import Idealize.ShloMosaic.Lib.ReduceAll
import Idealize.ShloMosaic.Lib.ValueIdx
import Idealize.ShloMosaic.PureOps.Ideal.Laws

noncomputable section

namespace Cert.Quant

open Idealize.ShloMosaic Idealize.SL.Sem

/-- The shape with no axis has one index. -/
instance : Subsingleton Cert.Pre_finite_inputs.S_.Idx := ⟨fun a b => funext fun d => d.elim0⟩

/-- The single-precision word of +∞ denotes ⊤. -/
theorem inf_f32 : Ideal.ofBits .f32 0x7F800000#32 = (⊤ : EReal) := by
  simp [Ideal.ofBits, Ideal.ieee]

/-- An extended real whose absolute value max x (−x) compares below ⊤ is neither ⊤ nor ⊥. -/
theorem finite_of_abs_lt (x : EReal) (h : Ideal.cmp .olt (max x (-x)) (⊤ : EReal) = 1#1) : x ≠ ⊤ ∧ x ≠ ⊥ := by
  have h1 : max x (-x) < ⊤ := by
    by_contra hn
    simp [Ideal.cmp, hn] at h
  constructor
  · rintro rfl; simp at h1
  · rintro rfl; simp at h1

/-- Under the precondition, on every device, every entry of x, of the scales and of the zeros is a real number:
    neither ⊤ nor ⊥. -/
theorem finite_of_pre [Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : Cert.KernelIdeal.S4x4096.Idx, (m ((c.tc : Thread Cert.KernelIdeal.nD Cert.KernelIdeal.τ).loc Cert.KernelIdeal.main_arg0) i : EReal) ≠ (⊤ : EReal) ∧ (m ((c.tc : Thread Cert.KernelIdeal.nD Cert.KernelIdeal.τ).loc Cert.KernelIdeal.main_arg0) i : EReal) ≠ (⊥ : EReal))
    ∧ (∀ i : Cert.KernelIdeal.S32x11008.Idx, (m ((c.tc : Thread Cert.KernelIdeal.nD Cert.KernelIdeal.τ).loc Cert.KernelIdeal.main_arg2) i : EReal) ≠ (⊤ : EReal) ∧ (m ((c.tc : Thread Cert.KernelIdeal.nD Cert.KernelIdeal.τ).loc Cert.KernelIdeal.main_arg2) i : EReal) ≠ (⊥ : EReal))
    ∧ (∀ i : Cert.KernelIdeal.S32x11008.Idx, (m ((c.tc : Thread Cert.KernelIdeal.nD Cert.KernelIdeal.τ).loc Cert.KernelIdeal.main_arg3) i : EReal) ≠ (⊤ : EReal) ∧ (m ((c.tc : Thread Cert.KernelIdeal.nD Cert.KernelIdeal.τ).loc Cert.KernelIdeal.main_arg3) i : EReal) ≠ (⊥ : EReal)) := by
  -- the predicate's one truth value, as the conjunction of the three "all entries" values
  have e := congrFun (h c) ValueIdx.ix0
  dsimp only [Cert.Pre_finite_inputs.fn] at e
  obtain ⟨e01, e3⟩ := IntOp.andi_eq_one.1 e
  obtain ⟨e0, e2⟩ := IntOp.andi_eq_one.1 e01
  -- each "all entries" value is 1, so each entry's comparison |a| < +∞ is 1
  refine ⟨fun i => ?_, fun i => ?_, fun i => ?_⟩
  · have hA := Host.reduce_andi_all _ _ _ _ _ e0 i
    exact finite_of_abs_lt _ (inf_f32 ▸ hA)
  · have hA := Host.reduce_andi_all _ _ _ _ _ e2 i
    exact finite_of_abs_lt _ (inf_f32 ▸ hA)
  · have hA := Host.reduce_andi_all _ _ _ _ _ e3 i
    exact finite_of_abs_lt _ (inf_f32 ▸ hA)

end Cert.Quant

end
-- ==== Proof.LibPlainDot.lean ====
/-
  The plain matrix product read at an index.

  For the contraction pattern "rows × inner" by "inner × columns" (left axis 1 against right axis 0, no batch
  axis), the product into a zero accumulator, and the host's product of the same operands, are at output
  index (p, q) the sum over the inner coordinate k of l(p, k) · r(k, q). The contraction's own index type
  has one axis of extent K; the sum is re-indexed through the bijection of that type with `Fin K`.
  Nothing here depends on a program: the three extents are variables.
-/
import Idealize.ShloMosaic.PureOps.Ideal.Laws
import Idealize.ShloMosaic.Lib.ValueIdx

noncomputable section

open scoped BigOperators

namespace Cert.LibPlainDot

open Idealize.ShloMosaic Idealize.ShloMosaic.ValueIdx

variable {M K N : Nat}

/-- The plain pattern contracts exactly one axis. -/
theorem contr_rank : (DotDims.plain M K N).contr.rank = 1 := rfl

/-- That axis has the inner extent. -/
theorem contr_size : (DotDims.plain M K N).contr.size ⟨0, by rw [contr_rank]; exact Nat.one_pos⟩ = K := rfl

/-- The bijection of the contraction's index type with the inner coordinate. -/
abbrev inner : (DotDims.plain M K N).contr.Idx ≃ Fin K :=
  contrEquiv1 (DotDims.plain M K N) K contr_rank contr_size

/-- At output index j and inner coordinate k the left operand is read at (j₀, k). -/
theorem lhsIdx_inner (j : (⟨2, ![M, N]⟩ : Shape).Idx) (k : Fin K) :
    (DotDims.plain M K N).lhsIdx j (inner.symm k) = ix2 (j 0) k := by
  funext a
  match a with
  | ⟨0, _⟩ => rfl
  | ⟨1, _⟩ =>
    apply Fin.ext
    exact ((DotDims.plain M K N).lhsIdx_val_of_single (cl := 1) rfl j (inner.symm k)).trans
      (contrEquiv1_symm_val (DotDims.plain M K N) K contr_rank contr_size k)

/-- At output index j and inner coordinate k the right operand is read at (k, j₁). -/
theorem rhsIdx_inner (j : (⟨2, ![M, N]⟩ : Shape).Idx) (k : Fin K) :
    (DotDims.plain M K N).rhsIdx j (inner.symm k) = ix2 k (j 1) := by
  funext a
  match a with
  | ⟨0, _⟩ =>
    apply Fin.ext
    exact ((DotDims.plain M K N).rhsIdx_val_of_single (cr := 0) rfl j (inner.symm k)).trans
      (contrEquiv1_symm_val (DotDims.plain M K N) K contr_rank contr_size k)
  | ⟨1, _⟩ => rfl

/-- The contraction's sum, over the inner coordinate. -/
theorem sum_inner (l : (⟨2, ![M, K]⟩ : Shape).Idx → EReal) (r : (⟨2, ![K, N]⟩ : Shape).Idx → EReal)
    (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (inner (M := M) (K := K) (N := N)).symm]
  exact Finset.sum_congr rfl fun k _ =>
    congrArg₂ (· * ·) (congrArg l (lhsIdx_inner j k)) (congrArg r (rhsIdx_inner j k))

/-- A kernel's product into the zero accumulator, at an index. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_inner l r j)

/-- The host's product, at an index: the same sum. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, l (ix2 (j 0) k) * r (ix2 k (j 1)) :=
  (Ideal.dotGeneral_apply (DotDims.plain M K N) prec sched l r j).trans (sum_inner l r j)

end Cert.LibPlainDot

end
-- ==== Proof.HostTerm.lean ====
/-
  The zero-correction array, as the program computes it before its one region.

  The program reshapes x from [4, 4096] to [4, 32, 128] (feature k = 128 g + j becomes entry (g, j) of its row),
  sums the last axis from the initial value 0 (one number per row and group: the group's sum of x), and multiplies
  the resulting [4, 32] matrix by the zero table [32, 11008]. At entry (b, n) this is the sum over the groups g of
  (0 + the sum over j of x(b, 128 g + j)) · zero(g, n), which is corrVal of row b of x and column n of the zero table:
  corrArr. The initial value stays the literal 0 + …, so only index equalities are used: entry (b, g, j) of the
  reshaped array and entry (b, 128 g + j) of x have the same row-major position, (b · 32 + g) · 128 + j = b · 4096 + (128 g + j).
-/
import proofs.«419788_j51599737094843_3_alg».proof.Proof.Spec
import proofs.«419788_j51599737094843_3_alg».proof.Proof.Gen.KernelIdeal.Frame
import proofs.«419788_j51599737094843_3_alg».proof.Proof.LibPlainDot
import Idealize.ShloMosaic.Lib.StableHlo.Run
import Idealize.ShloMosaic.Lib.Pipeline.Value
import Idealize.ShloMosaic.Lib.ValueIdx
import Idealize.ShloMosaic.PureOps.Ideal.Laws

noncomputable section

open scoped BigOperators

namespace Cert.Quant

open Idealize.ShloMosaic Idealize.ShloMosaic.TcCoe Idealize.ShloMosaic.ValueIdx Idealize.SL.Sem
open Cert.KernelIdeal Cert.KernelIdeal.Gen

/-- The program's contraction pattern is the plain one: rows × inner by inner × columns, at extents 4, 32, 11008. -/
theorem dot_eq_plain : dot_S4x32_S32x11008_S4x11008_1_0_0_1_n_n = DotDims.plain 4 32 11008 := rfl

/-- When the region is entered, the buffer of the zero correction holds corrArr of x and the zero table as launched. -/
theorem V_main_v2 (m : (ℓ : Loc nD τ sig) → Buf (Elt Ideal) ℓ) (c : Dev nD) :
    (Gen.V (F := Ideal) m c main_v2 : S4x11008.Idx → EReal)
      = corrArr (m ((c : Thread nD τ).loc main_arg0)) (m ((c : Thread nD τ).loc main_arg3)) := by
  -- the four operations before the region, composed: product of (the sums over the last axis of x reshaped) and the zeros
  have e : (Gen.V (F := Ideal) m c main_v2 : S4x11008.Idx → EReal)
      = Host.dotGeneral (F := Ideal) (φ₁ := .f32) (φ₂ := .f32) dot_S4x32_S32x11008_S4x11008_1_0_0_1_n_n (some .fp32)
          (Host.reduceAdd (F := Ideal) (φ := .f32) (shapeCast S4x32x128 (m ((c : Thread nD τ).loc main_arg0) : S4x4096.Idx → EReal) Facts₀.shapeCasts_S4x4096_S4x32x128)
            (constant (F := Ideal) S_ .f32 0x00000000#32) Facts₀.reducesTo_S4x32x128_S4x32_d2 Facts₀.h_S_)
          (m ((c : Thread nD τ).loc main_arg3) : S32x11008.Idx → EReal) := by
    dsimp only [Gen.V, Gen.hostOps0]
    after_results
    rfl
  rw [e]
  funext i
  obtain ⟨b, n, rfl⟩ : ∃ (b : Fin 4) (n : Fin 11008), i = ix2 b n :=
    ⟨⟨(i 0).val, (i 0).isLt⟩, ⟨(i 1).val, (i 1).isLt⟩, by funext a; match a with | ⟨0, _⟩ => rfl | ⟨1, _⟩ => rfl⟩
  -- the product at (b, n): the sum over the groups g of left(b, g) · zero(g, n)
  simp only [Host.dotGeneral]
  rw [dot_eq_plain, Cert.LibPlainDot.dotGeneral_apply]
  show _ = corrVal _ _
  unfold corrVal
  refine Finset.sum_congr rfl fun g _ => congrArg₂ (· * ·) ?_ ?_
  · -- left(b, g): the initial value plus the sum over j of the reshaped x at (b, g, j)
    simp only [Host.reduceAdd]
    have hR : S4x32x128.Reduces [2] S4x32 := by decide
    rw [Ideal.hostReduceAdd_def, Ideal.hostReduceAdd_single Facts₀.reducesTo_S4x32x128_S4x32_d2 hR]
    refine congrArg₂ (· + ·) ?_ (Finset.sum_congr rfl fun j _ => ?_)
    · -- the initial value, the word of 0.0, is 0
      exact Ideal.ofBits_zero_f32
    · -- the reshaped x at (b, g, j) is x at (b, 128 g + j): equal row-major positions
      have h2 := Shape.rowMajor_val_two (d := ![4, 4096]) (ix2 b (kOf g j))
      have h3 := Shape.rowMajor_val_three (d := ![4, 32, 128]) (hR.lift (ix2 b g) j)
      refine shapeCast_apply (s := S4x4096) (t := S4x32x128) _ _ _ (ix2 b (kOf g j)) (h2.trans (Eq.trans ?_ h3.symm))
      show b.val * 4096 + (128 * g.val + j.val) = (b.val * 32 + g.val) * 128 + j.val
      omega
  · rfl

end Cert.Quant

end
-- ==== Proof.Group.lean ====
/-
  Reading one group of the kernel's body at an entry of the output block.

  The body works on a chunk of 1024 features at a time: the chunk of x is viewed [4, 8, 128] (row, group, feature
  in the group), the chunk of packed words [128, 256] is unpacked to codes viewed [8, 128, 256] (group, feature in
  the group, column), and the chunk's eight scale rows are [8, 256]. For group g it multiplies the [4, 128] slice
  of x by the [128, 256] slice of the codes (a product into a zero accumulator) and scales the result by scale
  row g. This module reads each of those layout steps at an index, and the two reshaped chunks back in terms
  of what was loaded: entry (b, g, j) of the reshaped x chunk is entry (b, 128 g + j) of the chunk, and entry
  (g, j, q) of the codes is field j mod 8 of the word at packed row 16 g + j / 8, column q.
-/
import proofs.«419788_j51599737094843_3_alg».proof.Proof.Gen.KernelIdeal.Skeleton
import proofs.«419788_j51599737094843_3_alg».proof.Proof.LibPlainDot
import proofs.«419788_j51599737094843_3_alg».proof.Proof.Spec
import Idealize.ShloMosaic.Lib.Pipeline.Value
import Idealize.ShloMosaic.Lib.ValueIdx
import Idealize.ShloMosaic.Lib.KernelVsHost

noncomputable section

open scoped BigOperators

namespace Cert.Quant

open Idealize.ShloMosaic Idealize.ShloMosaic.ValueIdx Cert.KernelIdeal Cert.KernelIdeal.Gen

/-! ## The product of a [4, 128] by a [128, 256] operand into the zero accumulator -/

theorem mm_apply (L : FVec Ideal S4x128 .bf16) (R : FVec Ideal S128x256 .bf16) (b : Fin 4) (q : Fin 256) :
    matmul dot_S4x128_S128x256_S4x256_1_0_0_1_n_n none L R (constant S4x256 .f32 0x00000000#32) (ix2 b q)
      = ∑ j : Fin 128, L (ix2 b j) * R (ix2 j q) :=
  Cert.LibPlainDot.matmul_zero_apply (M := 4) (K := 128) (N := 256) none L R (ix2 b q)

/-! ## The slices, with the group's number read off the slice's own bounds -/

theorem ltA {g : Nat} (h : S4x8x128.Slices ![0, g, 0] S4x1x128) : g < 8 := by
  obtain ⟨_, h2⟩ := h
  have h1 := h2 1
  change g + 1 ≤ 8 at h1
  omega

theorem ltB {g : Nat} (h : S8x128x256.Slices ![g, 0, 0] S1x128x256) : g < 8 := by
  obtain ⟨_, h2⟩ := h
  have h1 := h2 0
  change g + 1 ≤ 8 at h1
  omega

theorem ltC {g : Nat} (h : S8x256.Slices ![g, 0] S1x256) : g < 8 := by
  obtain ⟨_, h2⟩ := h
  have h1 := h2 0
  change g + 1 ≤ 8 at h1
  omega

/-- Group g's [4, 128] slice of the reshaped x chunk, at (b, j): the chunk at (b, g, j). -/
theorem xslice_apply {α : Type} (g : Nat) (X : S4x8x128.Idx → α) (h : S4x8x128.Slices ![0, g, 0] S4x1x128)
    (h' : S4x1x128.ShapeCasts S4x128) (b : Fin 4) (j : Fin 128) :
    shapeCast S4x128 (extractStridedSlice S4x1x128 ![0, g, 0] X h) h' (ix2 b j) = X (ix3 b ⟨g, ltA h⟩ j) := by
  refine (shapeCast_apply _ h' (ix2 b j) (ix3 b 0 j) ?_).trans ?_
  · rw [Shape.rowMajor_val_three, Shape.rowMajor_val_two]
    show (b.val * 1 + 0) * 128 + j.val = b.val * 128 + j.val
    omega
  · exact extractStridedSlice_apply _ X h (ix3 b 0 j) (ix3 b ⟨g, ltA h⟩ j) (fun a => match a with
      | ⟨0, _⟩ => by show b.val = 0 + b.val; omega
      | ⟨1, _⟩ => by show g = g + 0; omega
      | ⟨2, _⟩ => by show j.val = 0 + j.val; omega)

/-- Group g's [1, 128, 256] slice of the codes, at (0, j, q): the codes at (g, j, q). -/
theorem wslice_apply {α : Type} (g : Nat) (W : S8x128x256.Idx → α) (h : S8x128x256.Slices ![g, 0, 0] S1x128x256)
    (j : Fin 128) (q : Fin 256) :
    extractStridedSlice S1x128x256 ![g, 0, 0] W h (ix3 0 j q) = W (ix3 ⟨g, ltB h⟩ j q) :=
  extractStridedSlice_apply _ W h (ix3 0 j q) (ix3 ⟨g, ltB h⟩ j q) (fun a => match a with
    | ⟨0, _⟩ => by show g = g + 0; omega
    | ⟨1, _⟩ => by show j.val = 0 + j.val; omega
    | ⟨2, _⟩ => by show q.val = 0 + q.val; omega)

/-- A [1, 128, 256] slice viewed [128, 256], at (j, q): the slice at (0, j, q). -/
theorem wdrop_apply {α : Type} (R1 : S1x128x256.Idx → α) (h' : S1x128x256.ShapeCasts S128x256) (j : Fin 128) (q : Fin 256) :
    shapeCast S128x256 R1 h' (ix2 j q) = R1 (ix3 0 j q) := by
  refine shapeCast_apply _ h' (ix2 j q) (ix3 0 j q) ?_
  rw [Shape.rowMajor_val_three, Shape.rowMajor_val_two]
  show (0 * 128 + j.val) * 256 + q.val = j.val * 256 + q.val
  omega

/-- Scale row g spread over the four rows of the block, at (b, q): the scale chunk at (g, q). -/
theorem sslice_apply {α : Type} (g : Nat) (S : S8x256.Idx → α) (h : S8x256.Slices ![g, 0] S1x256)
    (h' : S1x256.Broadcasts S4x256) (b : Fin 4) (q : Fin 256) :
    broadcastTo S4x256 (extractStridedSlice S1x256 ![g, 0] S h) h' (ix2 b q) = S (ix2 ⟨g, ltC h⟩ q) := by
  refine (broadcastTo_apply _ h' (ix2 b q) (ix2 0 q) (fun a => match a with
    | ⟨0, _⟩ => by show 0 = if (1 : Nat) = 1 then 0 else _; rw [if_pos rfl]
    | ⟨1, _⟩ => by show q.val = if (256 : Nat) = 1 then 0 else q.val; rw [if_neg (by decide)])).trans ?_
  exact extractStridedSlice_apply _ S h (ix2 0 q) (ix2 ⟨g, ltC h⟩ q) (fun a => match a with
    | ⟨0, _⟩ => by show g = g + 0; omega
    | ⟨1, _⟩ => by show q.val = 0 + q.val; omega)

/-! ## One group's value -/

/-- Group g over the reshaped chunks: the sum over the group's features of x · code, times the group's scale. -/
def gvI (X : S4x8x128.Idx → EReal) (W : S8x128x256.Idx → EReal) (S : S8x256.Idx → EReal) (g : Fin 8) (b : Fin 4) (q : Fin 256) : EReal :=
  (∑ j : Fin 128, X (ix3 b g j) * W (ix3 g j q)) * S (ix2 g q)

/-- The same with the two operands already cut out: the [4, 128] slice of x and the [1, 128, 256] slice of the codes. -/
def gvP (L : S4x128.Idx → EReal) (R1 : S1x128x256.Idx → EReal) (S : S8x256.Idx → EReal) (g : Fin 8) (b : Fin 4) (q : Fin 256) : EReal :=
  (∑ j : Fin 128, L (ix2 b j) * R1 (ix3 0 j q)) * S (ix2 g q)

/-- Cut out of the reshaped chunks, the second form is the first. -/
theorem gvP_slices (g : Nat) (X : S4x8x128.Idx → EReal) (W : S8x128x256.Idx → EReal) (S : S8x256.Idx → EReal)
    (hA : S4x8x128.Slices ![0, g, 0] S4x1x128) (hA' : S4x1x128.ShapeCasts S4x128)
    (hB : S8x128x256.Slices ![g, 0, 0] S1x128x256) (g' : Fin 8) (hg : g'.val = g) (b : Fin 4) (q : Fin 256) :
    gvP (shapeCast S4x128 (extractStridedSlice S4x1x128 ![0, g, 0] X hA) hA') (extractStridedSlice S1x128x256 ![g, 0, 0] W hB) S g' b q
      = gvI X W S g' b q := by
  obtain ⟨g'', hg''⟩ := g'
  subst hg
  unfold gvP gvI
  simp only [xslice_apply, wslice_apply]

/-! ## The reshaped chunks, in terms of what was loaded -/

/-- The x chunk viewed [4, 8, 128], at (b, g, j): the chunk at (b, 128 g + j). (A change of float format is the identity.) -/
theorem pay3_apply (v6 : Vec Ideal S4x1024 .f32) (b : Fin 4) (g : Fin 8) (j : Fin 128) :
    k0_pay3 (F := Ideal) v6 (ix3 b g j) = v6 (ix2 b ⟨128 * g.val + j.val, by have := g.isLt; have := j.isLt; omega⟩) := by
  unfold k0_pay3
  refine (shapeCast_apply _ shapeCasts_S4x1024_S4x8x128 (ix3 b g j) (ix2 b ⟨128 * g.val + j.val, by have := g.isLt; have := j.isLt; omega⟩) ?_).trans rfl
  rw [Shape.rowMajor_val_three, Shape.rowMajor_val_two]
  show b.val * 1024 + (128 * g.val + j.val) = (b.val * 8 + g.val) * 128 + j.val
  omega

/-- The eight shift amounts: 4 s for field s. -/
theorem shift_amount : ∀ s : Fin 8, IntOp.muli (BitVec.ofNat 32 s.val) 4#32 = BitVec.ofNat 32 (4 * s.val) := by decide

/-- The chunk's words spread over the eight fields, at (r, s, q): the word at (r, q). -/
theorem word_at (v4 : S128x256.Idx → BitVec 32) (r : Fin 128) (s : Fin 8) (q : Fin 256) :
    broadcastTo S128x8x256 (shapeCast S128x1x256 v4 shapeCasts_S128x256_S128x1x256) broadcasts_S128x1x256_S128x8x256 (ix3 r s q)
      = v4 (ix2 r q) := by
  refine (broadcastTo_apply _ broadcasts_S128x1x256_S128x8x256 (ix3 r s q) (ix3 r 0 q) (fun a => match a with
    | ⟨0, _⟩ => by show r.val = if (128 : Nat) = 1 then 0 else r.val; rw [if_neg (by decide)]
    | ⟨1, _⟩ => by show 0 = if (1 : Nat) = 1 then 0 else s.val; rw [if_pos rfl]
    | ⟨2, _⟩ => by show q.val = if (256 : Nat) = 1 then 0 else q.val; rw [if_neg (by decide)])).trans ?_
  refine shapeCast_apply _ shapeCasts_S128x256_S128x1x256 (ix3 r 0 q) (ix2 r q) ?_
  rw [Shape.rowMajor_val_three, Shape.rowMajor_val_two]
  show r.val * 256 + q.val = (r.val * 1 + 0) * 256 + q.val
  omega

/-- The shift amounts spread over the chunk, at (r, s, q): 4 s. -/
theorem amt_at (r : Fin 128) (s : Fin 8) (q : Fin 256) :
    broadcastTo S128x8x256 k0_pay1 broadcasts_S1x8x1_S128x8x256 (ix3 r s q) = BitVec.ofNat 32 (4 * s.val) := by
  refine (broadcastTo_apply _ broadcasts_S1x8x1_S128x8x256 (ix3 r s q) (ix3 0 s 0) (fun a => match a with
    | ⟨0, _⟩ => by show 0 = if (1 : Nat) = 1 then 0 else r.val; rw [if_pos rfl]
    | ⟨1, _⟩ => by show s.val = if (8 : Nat) = 1 then 0 else s.val; rw [if_neg (by decide)]
    | ⟨2, _⟩ => by show 0 = if (1 : Nat) = 1 then 0 else q.val; rw [if_pos rfl])).trans ?_
  unfold k0_pay1
  show IntOp.muli (iota .tc S1x8x1 32 [1] iota_S1x8x1_d1_w32 (ix3 0 s 0)) 4#32 = _
  rw [iota_single_apply]
  exact shift_amount s

/-- The codes viewed [8, 128, 256], at (g, j, q): field j mod 8 of the word at packed row 16 g + j / 8, column q. -/
theorem pay2_apply (v4 : Vec Ideal S128x256 .i32) (g : Fin 8) (j : Fin 128) (q : Fin 256) :
    k0_pay2 (F := Ideal) v4 (ix3 g j q)
      = ((nib (v4 (ix2 ⟨16 * g.val + j.val / 8, by have := g.isLt; have := j.isLt; omega⟩ q)) ⟨j.val % 8, Nat.mod_lt _ (by decide)⟩ : ℝ) : EReal) := by
  unfold k0_pay2
  refine (shapeCast_apply _ shapeCasts_S128x8x256_S8x128x256 (ix3 g j q)
    (ix3 ⟨16 * g.val + j.val / 8, by have := g.isLt; have := j.isLt; omega⟩ ⟨j.val % 8, Nat.mod_lt _ (by decide)⟩ q) ?_).trans ?_
  · rw [Shape.rowMajor_val_three, Shape.rowMajor_val_three]
    show ((16 * g.val + j.val / 8) * 8 + j.val % 8) * 256 + q.val = (g.val * 128 + j.val) * 256 + q.val
    omega
  · show ((((IntOp.andi (IntOp.shrsi .vector
        (broadcastTo S128x8x256 (shapeCast S128x1x256 v4 shapeCasts_S128x256_S128x1x256) broadcasts_S128x1x256_S128x8x256 _)
        (broadcastTo S128x8x256 k0_pay1 broadcasts_S1x8x1_S128x8x256 _)) 15#32).toInt : ℝ) : EReal)) = _
    rw [word_at, amt_at, shrsi_unit .vector .host]
    rfl

end Cert.Quant

end
-- ==== Proof.Accum.lean ====
/-
  The running sum of the kernel's body, stretch by stretch.

  The body adds the 32 group values one after the other into an accumulator that starts at zero, and at the end
  subtracts the correction block. Read at an entry (b, q) of the output block, each stretch of the body is its
  incoming accumulator at (b, q) plus the values of the groups it handles; the first group of a stretch may arrive
  with its two operands already cut out of the reshaped chunks (the second form of a group's value).
-/
import proofs.«419788_j51599737094843_3_alg».proof.Proof.Group

noncomputable section

open scoped BigOperators

namespace Cert.Quant

open Idealize.ShloMosaic Idealize.ShloMosaic.ValueIdx Cert.KernelIdeal Cert.KernelIdeal.Gen

/-- The accumulator's initial value, the float zero, is the number 0. -/
theorem acc_zero : (FloatOps.ofBits FTy.f32 0#32 : Ideal .f32) = 0 := Ideal.ofBits_zero_f32

/-- Chunk 0, groups 0 to 2, from the zero accumulator. -/
theorem pay4_apply (v4 : Vec Ideal S128x256 .i32) (v5 : Vec Ideal S8x256 .f32) (v6 : Vec Ideal S4x1024 .f32) (b : Fin 4) (q : Fin 256) :
    k0_pay4 (F := Ideal) v4 v5 v6 (ix2 b q)
      = 0 + gvI (k0_pay3 v6) (k0_pay2 v4) v5 ⟨0, by decide⟩ b q + gvI (k0_pay3 v6) (k0_pay2 v4) v5 ⟨1, by decide⟩ b q
          + gvI (k0_pay3 v6) (k0_pay2 v4) v5 ⟨2, by decide⟩ b q := by
  unfold k0_pay4 gvI
  simp only [addf_apply, subf_apply, mulf_apply, broadcast_apply, shapeCast_self, mm_apply, wdrop_apply, sslice_apply, xslice_apply, wslice_apply]
  rw [acc_zero]

/-- Chunk 0, groups 3 to 7. -/
theorem pay7_apply (v5 : Vec Ideal S8x256 .f32) (v14 : FVec Ideal S8x128x256 .bf16) (v16 : FVec Ideal S4x8x128 .bf16)
    (v43 : FVec Ideal S4x256 .f32) (v45 : FVec Ideal S4x128 .bf16) (v46 : FVec Ideal S1x128x256 .bf16) (b : Fin 4) (q : Fin 256) :
    k0_pay7 (F := Ideal) v5 v14 v16 v43 v45 v46 (ix2 b q)
      = v43 (ix2 b q) + gvP v45 v46 v5 ⟨3, by decide⟩ b q + gvI v16 v14 v5 ⟨4, by decide⟩ b q + gvI v16 v14 v5 ⟨5, by decide⟩ b q
          + gvI v16 v14 v5 ⟨6, by decide⟩ b q + gvI v16 v14 v5 ⟨7, by decide⟩ b q := by
  unfold k0_pay7 gvI gvP
  simp only [addf_apply, subf_apply, mulf_apply, broadcast_apply, shapeCast_self, mm_apply, wdrop_apply, sslice_apply, xslice_apply, wslice_apply]

/-- Chunk 1, groups 0 to 4. -/
theorem pay11_apply (v88 : FVec Ideal S4x256 .f32) (v90 : Vec Ideal S8x256 .f32) (v91 : Vec Ideal S4x1024 .f32)
    (v95 : IVec S128x8x256 32) (b : Fin 4) (q : Fin 256) :
    k0_pay11 (F := Ideal) v88 v90 v91 v95 (ix2 b q)
      = v88 (ix2 b q) + gvI (k0_pay10 v91) (k0_pay9 (F := Ideal) v95) v90 ⟨0, by decide⟩ b q + gvI (k0_pay10 v91) (k0_pay9 (F := Ideal) v95) v90 ⟨1, by decide⟩ b q
          + gvI (k0_pay10 v91) (k0_pay9 (F := Ideal) v95) v90 ⟨2, by decide⟩ b q + gvI (k0_pay10 v91) (k0_pay9 (F := Ideal) v95) v90 ⟨3, by decide⟩ b q
          + gvI (k0_pay10 v91) (k0_pay9 (F := Ideal) v95) v90 ⟨4, by decide⟩ b q := by
  unfold k0_pay11 gvI
  simp only [addf_apply, subf_apply, mulf_apply, broadcast_apply, shapeCast_self, mm_apply, wdrop_apply, sslice_apply, xslice_apply, wslice_apply]

/-- Chunk 1, groups 5 to 7, then chunk 2, group 0. -/
theorem pay16_apply (v2 : IVec S1x8x1 32) (v90 : Vec Ideal S8x256 .f32) (v99 : FVec Ideal S8x128x256 .bf16) (v101 : FVec Ideal S4x8x128 .bf16)
    (v146 : FVec Ideal S4x256 .f32) (v148 : FVec Ideal S4x128 .bf16) (v149 : FVec Ideal S1x128x256 .bf16)
    (v174 : Vec Ideal S128x256 .i32) (v175 : Vec Ideal S8x256 .f32) (v176 : Vec Ideal S4x1024 .f32) (b : Fin 4) (q : Fin 256) :
    k0_pay16 (F := Ideal) v2 v90 v99 v101 v146 v148 v149 v174 v175 v176 (ix2 b q)
      = v146 (ix2 b q) + gvP v148 v149 v90 ⟨5, by decide⟩ b q + gvI v101 v99 v90 ⟨6, by decide⟩ b q + gvI v101 v99 v90 ⟨7, by decide⟩ b q
          + gvI (k0_pay15 v176) (k0_pay14 (F := Ideal) v2 v174) v175 ⟨0, by decide⟩ b q := by
  unfold k0_pay16 gvI gvP
  simp only [addf_apply, subf_apply, mulf_apply, broadcast_apply, shapeCast_self, mm_apply, wdrop_apply, sslice_apply, xslice_apply, wslice_apply]

/-- Chunk 2, groups 1 to 6. -/
theorem pay19_apply (v175 : Vec Ideal S8x256 .f32) (v184 : FVec Ideal S8x128x256 .bf16) (v186 : FVec Ideal S4x8x128 .bf16)
    (v195 : FVec Ideal S4x256 .f32) (v197 : FVec Ideal S4x128 .bf16) (v198 : FVec Ideal S1x128x256 .bf16) (b : Fin 4) (q : Fin 256) :
    k0_pay19 (F := Ideal) v175 v184 v186 v195 v197 v198 (ix2 b q)
      = v195 (ix2 b q) + gvP v197 v198 v175 ⟨1, by decide⟩ b q + gvI v186 v184 v175 ⟨2, by decide⟩ b q + gvI v186 v184 v175 ⟨3, by decide⟩ b q
          + gvI v186 v184 v175 ⟨4, by decide⟩ b q + gvI v186 v184 v175 ⟨5, by decide⟩ b q + gvI v186 v184 v175 ⟨6, by decide⟩ b q := by
  unfold k0_pay19 gvI gvP
  simp only [addf_apply, subf_apply, mulf_apply, broadcast_apply, shapeCast_self, mm_apply, wdrop_apply, sslice_apply, xslice_apply, wslice_apply]

/-- Chunk 2, group 7, then chunk 3, groups 0 to 2. -/
theorem pay24_apply (v2 : IVec S1x8x1 32) (v175 : Vec Ideal S8x256 .f32) (v249 : FVec Ideal S4x256 .f32) (v251 : FVec Ideal S4x128 .bf16)
    (v252 : FVec Ideal S1x128x256 .bf16) (v259 : Vec Ideal S128x256 .i32) (v260 : Vec Ideal S8x256 .f32) (v261 : Vec Ideal S4x1024 .f32)
    (b : Fin 4) (q : Fin 256) :
    k0_pay24 (F := Ideal) v2 v175 v249 v251 v252 v259 v260 v261 (ix2 b q)
      = v249 (ix2 b q) + gvP v251 v252 v175 ⟨7, by decide⟩ b q + gvI (k0_pay23 v261) (k0_pay22 (F := Ideal) v2 v259) v260 ⟨0, by decide⟩ b q
          + gvI (k0_pay23 v261) (k0_pay22 (F := Ideal) v2 v259) v260 ⟨1, by decide⟩ b q + gvI (k0_pay23 v261) (k0_pay22 (F := Ideal) v2 v259) v260 ⟨2, by decide⟩ b q := by
  unfold k0_pay24 gvI gvP
  simp only [addf_apply, subf_apply, mulf_apply, broadcast_apply, shapeCast_self, mm_apply, wdrop_apply, sslice_apply, xslice_apply, wslice_apply]

/-- Chunk 3, groups 3 to 7, then the correction block's entry subtracted. -/
theorem pay27_apply (v260 : Vec Ideal S8x256 .f32) (v269 : FVec Ideal S8x128x256 .bf16) (v271 : FVec Ideal S4x8x128 .bf16)
    (v298 : FVec Ideal S4x256 .f32) (v300 : FVec Ideal S4x128 .bf16) (v301 : FVec Ideal S1x128x256 .bf16) (v344 : Vec Ideal S4x256 .f32)
    (b : Fin 4) (q : Fin 256) :
    k0_pay27 (F := Ideal) v260 v269 v271 v298 v300 v301 v344 (ix2 b q)
      = (v298 (ix2 b q) + gvP v300 v301 v260 ⟨3, by decide⟩ b q + gvI v271 v269 v260 ⟨4, by decide⟩ b q + gvI v271 v269 v260 ⟨5, by decide⟩ b q
          + gvI v271 v269 v260 ⟨6, by decide⟩ b q + gvI v271 v269 v260 ⟨7, by decide⟩ b q) - v344 (ix2 b q) := by
  unfold k0_pay27 gvI gvP
  simp only [addf_apply, subf_apply, mulf_apply, broadcast_apply, shapeCast_self, mm_apply, wdrop_apply, sslice_apply, xslice_apply, wslice_apply]

end Cert.Quant

end
-- ==== Proof.Chunk.lean ====
/-
  From the reshaped chunks back to the blocks, and the 32 groups as one sum.

  Chunk c of the body (c = 0, …, 3) loads columns 1024 c … 1024 c + 1023 of the x block, packed rows
  128 c … 128 c + 127 of the packed block and rows 8 c … 8 c + 7 of the scale block. Group g of that chunk is
  group 8 c + g of the whole: its features are 128 (8 c + g) + j = 1024 c + (128 g + j), held in packed rows
  (128 (8 c + g) + j) / 8 = 128 c + (16 g + j / 8) at field (128 (8 c + g) + j) mod 8 = j mod 8, and its scale row is
  8 c + g. So the group's value over the loaded chunks is the specification's group term of row b of x against
  column q of the packed block and of the scale block.
-/
import proofs.«419788_j51599737094843_3_alg».proof.Proof.Group
import Idealize.ShloMosaic.Lib.Pipeline.FrameBody

noncomputable section

open scoped BigOperators

namespace Cert.Quant

open Idealize.ShloMosaic Idealize.ShloMosaic.ValueIdx Cert.KernelIdeal Cert.KernelIdeal.Gen

/-! ## Every chunk reshapes its x and unpacks its words the same way -/

theorem pay10_eq (v : Vec Ideal S4x1024 .f32) : k0_pay10 (F := Ideal) v = k0_pay3 (F := Ideal) v := rfl
theorem pay15_eq (v : Vec Ideal S4x1024 .f32) : k0_pay15 (F := Ideal) v = k0_pay3 (F := Ideal) v := rfl
theorem pay23_eq (v : Vec Ideal S4x1024 .f32) : k0_pay23 (F := Ideal) v = k0_pay3 (F := Ideal) v := rfl
theorem pay9_eq (w : Vec Ideal S128x256 .i32) : k0_pay9 (F := Ideal) (k0_pay8 (F := Ideal) k0_pay1 w) = k0_pay2 (F := Ideal) w := rfl
theorem pay14_eq (w : Vec Ideal S128x256 .i32) : k0_pay14 (F := Ideal) k0_pay1 w = k0_pay2 (F := Ideal) w := rfl
theorem pay22_eq (w : Vec Ideal S128x256 .i32) : k0_pay22 (F := Ideal) k0_pay1 w = k0_pay2 (F := Ideal) w := rfl

/-! ## A group whose operands were cut out ahead of time is the group -/

theorem gvP_5_6 (xc : Vec Ideal S4x1024 .f32) (wc : Vec Ideal S128x256 .i32) (sc : S8x256.Idx → EReal) (b : Fin 4) (q : Fin 256) :
    gvP (k0_pay5 (F := Ideal) xc) (k0_pay6 (F := Ideal) wc) sc ⟨3, by decide⟩ b q
      = gvI (k0_pay3 (F := Ideal) xc) (k0_pay2 (F := Ideal) wc) sc ⟨3, by decide⟩ b q := by
  unfold k0_pay5 k0_pay6
  exact gvP_slices 3 _ _ _ _ _ _ ⟨3, by decide⟩ rfl b q

theorem gvP_12_13 (xc : Vec Ideal S4x1024 .f32) (v95 : IVec S128x8x256 32) (sc : S8x256.Idx → EReal) (b : Fin 4) (q : Fin 256) :
    gvP (k0_pay12 (F := Ideal) xc) (k0_pay13 (F := Ideal) v95) sc ⟨5, by decide⟩ b q
      = gvI (k0_pay10 (F := Ideal) xc) (k0_pay9 (F := Ideal) v95) sc ⟨5, by decide⟩ b q := by
  unfold k0_pay12 k0_pay13
  exact gvP_slices 5 _ _ _ _ _ _ ⟨5, by decide⟩ rfl b q

theorem gvP_17_18 (xc : Vec Ideal S4x1024 .f32) (v2 : IVec S1x8x1 32) (wc : Vec Ideal S128x256 .i32) (sc : S8x256.Idx → EReal) (b : Fin 4) (q : Fin 256) :
    gvP (k0_pay17 (F := Ideal) xc) (k0_pay18 (F := Ideal) v2 wc) sc ⟨1, by decide⟩ b q
      = gvI (k0_pay15 (F := Ideal) xc) (k0_pay14 (F := Ideal) v2 wc) sc ⟨1, by decide⟩ b q := by
  unfold k0_pay17 k0_pay18
  exact gvP_slices 1 _ _ _ _ _ _ ⟨1, by decide⟩ rfl b q

theorem gvP_20_21 (X : FVec Ideal S4x8x128 .bf16) (W : FVec Ideal S8x128x256 .bf16) (sc : S8x256.Idx → EReal) (b : Fin 4) (q : Fin 256) :
    gvP (k0_pay20 (F := Ideal) X) (k0_pay21 (F := Ideal) W) sc ⟨7, by decide⟩ b q = gvI X W sc ⟨7, by decide⟩ b q := by
  unfold k0_pay20 k0_pay21
  exact gvP_slices 7 _ _ _ _ _ _ ⟨7, by decide⟩ rfl b q

theorem gvP_25_26 (xc : Vec Ideal S4x1024 .f32) (v2 : IVec S1x8x1 32) (wc : Vec Ideal S128x256 .i32) (sc : S8x256.Idx → EReal) (b : Fin 4) (q : Fin 256) :
    gvP (k0_pay25 (F := Ideal) xc) (k0_pay26 (F := Ideal) v2 wc) sc ⟨3, by decide⟩ b q
      = gvI (k0_pay23 (F := Ideal) xc) (k0_pay22 (F := Ideal) v2 wc) sc ⟨3, by decide⟩ b q := by
  unfold k0_pay25 k0_pay26
  exact gvP_slices 3 _ _ _ _ _ _ ⟨3, by decide⟩ rfl b q

/-! ## A chunk's three loads, at an index -/

theorem ldX (x0 : Vec Ideal S4x4096 .f32) (o : Nat) (inb : ∀ a, ![0, o] a + S4x1024.size a ≤ S4x4096.size a) (b : Fin 4) (k : Fin 1024) :
    View.ld (Val := Elt Ideal) (e' := .f32) x0 (Rect.unit (s := S4x4096) ![0, o] S4x1024.size inb) (ix2 b k)
      = x0 (ix2 b ⟨o + k.val, by have h1 := inb 1; change o + 1024 ≤ 4096 at h1; have := k.isLt; omega⟩) := by
  show x0 _ = x0 _
  refine congrArg x0 (funext fun a => Fin.ext ?_)
  match a with
  | ⟨0, _⟩ => show 0 + 1 * b.val = b.val; omega
  | ⟨1, _⟩ => show o + 1 * k.val = o + k.val; omega

theorem ldW (x1 : Vec Ideal S512x256 .i32) (o : Nat) (inb : ∀ a, ![o, 0] a + S128x256.size a ≤ S512x256.size a) (r : Fin 128) (q : Fin 256) :
    View.ld (Val := Elt Ideal) (e' := .i32) x1 (Rect.unit (s := S512x256) ![o, 0] S128x256.size inb) (ix2 r q)
      = x1 (ix2 ⟨o + r.val, by have h0 := inb 0; change o + 128 ≤ 512 at h0; have := r.isLt; omega⟩ q) := by
  show x1 _ = x1 _
  refine congrArg x1 (funext fun a => Fin.ext ?_)
  match a with
  | ⟨0, _⟩ => show o + 1 * r.val = o + r.val; omega
  | ⟨1, _⟩ => show 0 + 1 * q.val = q.val; omega

theorem ldS (x2 : Vec Ideal S32x256 .f32) (o : Nat) (inb : ∀ a, ![o, 0] a + S8x256.size a ≤ S32x256.size a) (g : Fin 8) (q : Fin 256) :
    View.ld (Val := Elt Ideal) (e' := .f32) x2 (Rect.unit (s := S32x256) ![o, 0] S8x256.size inb) (ix2 g q)
      = x2 (ix2 ⟨o + g.val, by have h0 := inb 0; change o + 8 ≤ 32 at h0; have := g.isLt; omega⟩ q) := by
  show x2 _ = x2 _
  refine congrArg x2 (funext fun a => Fin.ext ?_)
  match a with
  | ⟨0, _⟩ => show o + 1 * g.val = o + g.val; omega
  | ⟨1, _⟩ => show 0 + 1 * q.val = q.val; omega

/-! ## Group g of chunk c is group 8 c + g -/

theorem gv_chunk (c : Fin 4) (ox ow os : Nat) (hx : ox = 1024 * c.val) (hw : ow = 128 * c.val) (hs : os = 8 * c.val)
    (x0 : Vec Ideal S4x4096 .f32) (x1 : Vec Ideal S512x256 .i32) (x2 : Vec Ideal S32x256 .f32)
    (inbX : ∀ a, ![0, ox] a + S4x1024.size a ≤ S4x4096.size a) (inbW : ∀ a, ![ow, 0] a + S128x256.size a ≤ S512x256.size a)
    (inbS : ∀ a, ![os, 0] a + S8x256.size a ≤ S32x256.size a) (g : Fin 8) (b : Fin 4) (q : Fin 256) :
    gvI (k0_pay3 (F := Ideal) (View.ld (Val := Elt Ideal) (e' := .f32) x0 (Rect.unit (s := S4x4096) ![0, ox] S4x1024.size inbX)))
        (k0_pay2 (F := Ideal) (View.ld (Val := Elt Ideal) (e' := .i32) x1 (Rect.unit (s := S512x256) ![ow, 0] S128x256.size inbW)))
        (View.ld (Val := Elt Ideal) (e' := .f32) x2 (Rect.unit (s := S32x256) ![os, 0] S8x256.size inbS)) g b q
      = grpTerm (fun k => x0 (ix2 b k)) (fun r => x1 (ix2 r q)) (fun G => x2 (ix2 G q))
          ⟨8 * c.val + g.val, by have := c.isLt; have := g.isLt; omega⟩ := by
  subst hx hw hs
  have hc := c.isLt
  have hg := g.isLt
  unfold gvI grpTerm
  simp only [pay3_apply, pay2_apply]
  refine congrArg₂ (· * ·) (Finset.sum_congr rfl fun j _ => ?_) ?_
  · have hj := j.isLt
    have e1 : rowOf (kOf ⟨8 * c.val + g.val, by omega⟩ j)
        = (⟨128 * c.val + (16 * g.val + j.val / 8), by omega⟩ : Fin 512) := Fin.ext (by
      show (128 * (8 * c.val + g.val) + j.val) / 8 = 128 * c.val + (16 * g.val + j.val / 8)
      omega)
    have e2 : fldOf (kOf ⟨8 * c.val + g.val, by omega⟩ j) = (⟨j.val % 8, Nat.mod_lt _ (by decide)⟩ : Fin 8) := Fin.ext (by
      show (128 * (8 * c.val + g.val) + j.val) % 8 = j.val % 8
      omega)
    rw [e1, e2]
    refine congrArg₂ (· * ·) ?_ ?_
    · refine (ldX x0 (1024 * c.val) inbX b ⟨128 * g.val + j.val, by omega⟩).trans
        (congrArg x0 (congrArg (ix2 b) (Fin.ext ?_)))
      show 1024 * c.val + (128 * g.val + j.val) = 128 * (8 * c.val + g.val) + j.val
      omega
    · exact congrArg (fun w => ((nib w ⟨j.val % 8, Nat.mod_lt _ (by decide)⟩ : ℝ) : EReal))
        (ldW x1 (128 * c.val) inbW ⟨16 * g.val + j.val / 8, by omega⟩ q)
  · exact ldS x2 (8 * c.val) inbS g q

/-! ## The 32 group terms, added one after the other from zero, are their sum -/

theorem sum_fin32 (f : Fin 32 → EReal) : ∑ G : Fin 32, f G = 0 + f ⟨0, by decide⟩ + f ⟨1, by decide⟩ + f ⟨2, by decide⟩ + f ⟨3, by decide⟩ + f ⟨4, by decide⟩ + f ⟨5, by decide⟩ + f ⟨6, by decide⟩ + f ⟨7, by decide⟩ + f ⟨8, by decide⟩ + f ⟨9, by decide⟩ + f ⟨10, by decide⟩ + f ⟨11, by decide⟩ + f ⟨12, by decide⟩ + f ⟨13, by decide⟩ + f ⟨14, by decide⟩ + f ⟨15, by decide⟩ + f ⟨16, by decide⟩ + f ⟨17, by decide⟩ + f ⟨18, by decide⟩ + f ⟨19, by decide⟩ + f ⟨20, by decide⟩ + f ⟨21, by decide⟩ + f ⟨22, by decide⟩ + f ⟨23, by decide⟩ + f ⟨24, by decide⟩ + f ⟨25, by decide⟩ + f ⟨26, by decide⟩ + f ⟨27, by decide⟩ + f ⟨28, by decide⟩ + f ⟨29, by decide⟩ + f ⟨30, by decide⟩ + f ⟨31, by decide⟩ := by
  rw [Finset.sum_fin_eq_sum_range]
  simp only [Finset.sum_range_succ, Finset.sum_range_zero, Nat.reduceLT, ↓reduceDIte]

end Cert.Quant

end
-- ==== Proof.Payload.lean ====
/-
  The kernel's output block at one entry, as a function of the four input blocks.

  The body's one store writes the whole [4, 256] block. Its value at (b, q) is the running sum of the 32 group
  values, taken stretch by stretch from zero, minus the correction block's entry; every group value, whichever
  chunk and stretch it comes from, is the specification's group term of row b of the x block against column q of the
  packed block and of the scale block.
-/
import proofs.«419788_j51599737094843_3_alg».proof.Proof.Accum
import proofs.«419788_j51599737094843_3_alg».proof.Proof.Chunk
import proofs.«419788_j51599737094843_3_alg».proof.Proof.Gen.KernelIdeal.Frame

noncomputable section

open scoped BigOperators

namespace Cert.Quant

open Idealize.ShloMosaic Idealize.ShloMosaic.ValueIdx Cert.KernelIdeal Cert.KernelIdeal.Gen

/-- The array the kernel leaves, entry (b, n): kerVal of row b of x and column n of the three tables. -/
def Karr (x : (⟨2, ![4, 4096]⟩ : Shape).Idx → EReal) (qw : (⟨2, ![512, 11008]⟩ : Shape).Idx → BitVec 32)
    (sc zr : (⟨2, ![32, 11008]⟩ : Shape).Idx → EReal) : (⟨2, ![4, 11008]⟩ : Shape).Idx → EReal :=
  fun i => kerVal (fun k => x (ix2 (⟨(i 0).val, (i 0).isLt⟩ : Fin 4) k))
    (fun r => qw (ix2 r (⟨(i 1).val, (i 1).isLt⟩ : Fin 11008)))
    (fun g => sc (ix2 g (⟨(i 1).val, (i 1).isLt⟩ : Fin 11008)))
    (fun g => zr (ix2 g (⟨(i 1).val, (i 1).isLt⟩ : Fin 11008)))

set_option maxHeartbeats 1000000 in
/-- The output block at (b, q): the 32 group terms of row b of x against column q of the packed block and of the
    scale block, minus the correction block's entry. -/
theorem out_apply (x0 : Vec Ideal S4x4096 .f32) (x1 : Vec Ideal S512x256 .i32) (x2 : Vec Ideal S32x256 .f32)
    (x3 : Vec Ideal S4x256 .f32) (b : Fin 4) (q : Fin 256) :
    out0_4 (F := Ideal) x0 x1 x2 x3 (ix2 b q)
      = (∑ g : Fin 32, grpTerm (fun k => x0 (ix2 b k)) (fun r => x1 (ix2 r q)) (fun g => x2 (ix2 g q)) g) - x3 (ix2 b q) := by
  have hz : (![0, 0] : Fin S4x256.rank → Nat) = fun _ => 0 :=
    funext fun a => by match a with | ⟨0, _⟩ => rfl | ⟨1, _⟩ => rfl
  unfold out0_4
  rw [View.canon_unit_zero hz]
  rw [pay27_apply, pay24_apply, pay19_apply, pay16_apply, pay11_apply, pay7_apply, pay4_apply]
  rw [View.ld_unit_zero hz]
  simp only [gvP_5_6, gvP_12_13, gvP_17_18, gvP_20_21, gvP_25_26, pay10_eq, pay15_eq, pay23_eq, pay9_eq, pay14_eq, pay22_eq]
  simp only [gv_chunk 0 0 0 0 rfl rfl rfl, gv_chunk 1 1024 128 8 rfl rfl rfl, gv_chunk 2 2048 256 16 rfl rfl rfl,
    gv_chunk 3 3072 384 24 rfl rfl rfl]
  rw [sum_fin32]
  rfl

end Cert.Quant

end
-- ==== Proof.Blocks.lean ====
/-
  From the output blocks to the whole output array of the kernel.

  The kernel runs over 43 grid points. Point t sees the whole of x, column block t (256 columns) of the packed
  table and of the scales, and column block t of the zero-correction array that was computed before the region;
  it writes column block t of the output. The output block at (b, q) is the 32 group terms of row b of x against
  column q of the point's packed and scale blocks, minus the correction block's entry. Column q of a block at
  point t is column 256 t + q of its array, and the correction array's entry (b, n) is corrVal of row b of x and
  column n of the zeros, so point t writes exactly block t of the array whose entry (b, n) is kerVal of row b of x
  and column n of the three tables. The 43 blocks of 256 columns tile the 11008 columns (43 · 256 = 11008): the
  column n lies in block n / 256. Hence the output array is that array.
-/
import proofs.«419788_j51599737094843_3_alg».proof.Proof.Payload
import proofs.«419788_j51599737094843_3_alg».proof.Proof.Gen.KernelIdeal.Value
import Idealize.ShloMosaic.Lib.Pipeline.Value

noncomputable section

open scoped BigOperators

namespace Cert.Quant

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Value

variable (m : (ℓ : Loc nD τ sig) → Buf (Elt Ideal) ℓ)

/-- Column q of column block T, as a column of the [·, 11008] arrays. -/
def colOf (T : Fin 43) (q : Fin 256) : Fin 11008 := ⟨256 * T.val + q.val, by have := T.isLt; have := q.isLt; omega⟩

/-- The printed index maps over the 43 grid points: x is whole at every point, the other four windows sit at
    column block t. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val :=
  (by decide +kernel : ∀ t : Fin grid0.N, _)

/-- A grid point is below 43. -/
theorem point_lt (t : Fin cfg0.N) : t.val < 43 :=
  Nat.lt_of_lt_of_eq t.isLt (show cfg0.N = 43 from N_0)

/-- ONE POINT, over variables: if the four input blocks are the whole of x, column block T of the packed table
    and of the scales, and column block T of the correction array, the output block at (b, q) is the entry
    (b, 256 T + q) of the kerVal array. -/
theorem point_apply (X0 : Vec Ideal S4x4096 .f32) (X1 : Vec Ideal S512x256 .i32) (X2 : Vec Ideal S32x256 .f32)
    (X3 : Vec Ideal S4x256 .f32)
    (x : (⟨2, ![4, 4096]⟩ : Shape).Idx → EReal) (qw : (⟨2, ![512, 11008]⟩ : Shape).Idx → BitVec 32)
    (sc zr : (⟨2, ![32, 11008]⟩ : Shape).Idx → EReal) (T : Fin 43)
    (h0 : ∀ (b : Fin 4) (k : Fin 4096), X0 (ix2 b k) = x (ix2 b k))
    (h1 : ∀ (r : Fin 512) (q : Fin 256), X1 (ix2 r q) = qw (ix2 r (colOf T q)))
    (h2 : ∀ (g : Fin 32) (q : Fin 256), X2 (ix2 g q) = sc (ix2 g (colOf T q)))
    (h3 : ∀ (b : Fin 4) (q : Fin 256), X3 (ix2 b q) = corrArr x zr (ix2 b (colOf T q)))
    (b : Fin 4) (q : Fin 256) :
    out0_4 (F := Ideal) X0 X1 X2 X3 (ix2 b q) = Karr x qw sc zr (ix2 b (colOf T q)) := by
  rw [out_apply X0 X1 X2 X3 b q, h3 b q]
  have e0 : (fun k => X0 (ix2 b k)) = fun k => x (ix2 b k) := funext (h0 b)
  have e1 : (fun r => X1 (ix2 r q)) = fun r => qw (ix2 r (colOf T q)) := funext fun r => h1 r q
  have e2 : (fun g => X2 (ix2 g q)) = fun g => sc (ix2 g (colOf T q)) := funext fun g => h2 g q
  rw [e0, e1, e2]
  rfl

/-- Window 0's block at any point is x as launched. -/
theorem xblk_apply (c : Dev nD) (t : Fin cfg0.N) (b : Fin 4) (k : Fin 4096) :
    (iblk m c 0 t : Vec Ideal S4x4096 .f32) (ix2 b k)
      = (m ((c : Thread nD τ).loc main_arg0) : S4x4096.Idx → EReal) (ix2 b k) := by
  obtain ⟨e0, e1, -⟩ := idx_facts t
  show V m c main_arg0 (((cfg0.win 0).blk t).view.emb (ix2 b k)) = _
  rw [V_main_arg0]
  refine congrArg _ (funext fun a => Fin.ext ?_)
  match a with
  | ⟨0, _⟩ => show win0_0.index t (0 : Fin 2) * 4 + 1 * b.val = b.val; omega
  | ⟨1, _⟩ => show win0_0.index t (1 : Fin 2) * 4096 + 1 * k.val = k.val; omega

/-- Window 1's block at point t is column block t of the packed table as launched. -/
theorem qblk_apply (c : Dev nD) (t : Fin cfg0.N) (r : Fin 512) (q : Fin 256) :
    (iblk m c 1 t : Vec Ideal S512x256 .i32) (ix2 r q)
      = (m ((c : Thread nD τ).loc main_arg1) : S512x11008.Idx → BitVec 32) (ix2 r (colOf ⟨t.val, point_lt t⟩ q)) := by
  obtain ⟨-, -, e0, e1, -⟩ := idx_facts t
  show V m c main_arg1 (((cfg0.win 1).blk t).view.emb (ix2 r q)) = _
  rw [V_main_arg1]
  refine congrArg _ (funext fun a => Fin.ext ?_)
  match a with
  | ⟨0, _⟩ => show win0_1.index t (0 : Fin 2) * 512 + 1 * r.val = r.val; omega
  | ⟨1, _⟩ => show win0_1.index t (1 : Fin 2) * 256 + 1 * q.val = 256 * t.val + q.val; omega

/-- Window 2's block at point t is column block t of the scales as launched. -/
theorem sblk_apply (c : Dev nD) (t : Fin cfg0.N) (g : Fin 32) (q : Fin 256) :
    (iblk m c 2 t : Vec Ideal S32x256 .f32) (ix2 g q)
      = (m ((c : Thread nD τ).loc main_arg2) : S32x11008.Idx → EReal) (ix2 g (colOf ⟨t.val, point_lt t⟩ q)) := by
  obtain ⟨-, -, -, -, e0, e1, -⟩ := idx_facts t
  show V m c main_arg2 (((cfg0.win 2).blk t).view.emb (ix2 g q)) = _
  rw [V_main_arg2]
  refine congrArg _ (funext fun a => Fin.ext ?_)
  match a with
  | ⟨0, _⟩ => show win0_2.index t (0 : Fin 2) * 32 + 1 * g.val = g.val; omega
  | ⟨1, _⟩ => show win0_2.index t (1 : Fin 2) * 256 + 1 * q.val = 256 * t.val + q.val; omega

/-- Window 3's block at point t is column block t of the array the region finds in the correction buffer. -/
theorem cblk_apply (c : Dev nD) (t : Fin cfg0.N) (b : Fin 4) (q : Fin 256) :
    (iblk m c 3 t : Vec Ideal S4x256 .f32) (ix2 b q)
      = (V m c main_v2 : S4x11008.Idx → EReal) (ix2 b (colOf ⟨t.val, point_lt t⟩ q)) := by
  obtain ⟨-, -, -, -, -, -, e0, e1, -⟩ := idx_facts t
  show V m c main_v2 (((cfg0.win 3).blk t).view.emb (ix2 b q)) = _
  refine congrArg _ (funext fun a => Fin.ext ?_)
  match a with
  | ⟨0, _⟩ => show win0_3.index t (0 : Fin 2) * 4 + 1 * b.val = b.val; omega
  | ⟨1, _⟩ => show win0_3.index t (1 : Fin 2) * 256 + 1 * q.val = 256 * t.val + q.val; omega

/-- WHAT POINT t WRITES BACK is block t of the kerVal array of the arguments as launched. -/
theorem flushed_eq
    (hT : ∀ c : Dev nD, (V m c main_v2 : S4x11008.Idx → EReal) = corrArr (m ((c : Thread nD τ).loc main_arg0)) (m ((c : Thread nD τ).loc main_arg3)))
    (c : Dev nD) (t : Fin cfg0.N) :
    (dats m 0 c).flushed 4 t = ((cfg0.win 4).blk t).view.read (Elt Ideal)
      (Karr (m ((c : Thread nD τ).loc main_arg0)) (m ((c : Thread nD τ).loc main_arg1)) (m ((c : Thread nD τ).loc main_arg2)) (m ((c : Thread nD τ).loc main_arg3))) := by
  rw [Value.flushed4]
  funext y
  show out0_4 (iblk m c 0 t) (iblk m c 1 t) (iblk m c 2 t) (iblk m c 3 t) y
    = Karr (m ((c : Thread nD τ).loc main_arg0)) (m ((c : Thread nD τ).loc main_arg1)) (m ((c : Thread nD τ).loc main_arg2)) (m ((c : Thread nD τ).loc main_arg3)) (((cfg0.win 4).blk t).view.emb y)
  obtain ⟨b, q, rfl⟩ : ∃ (b : Fin 4) (q : Fin 256), y = ix2 b q :=
    ⟨⟨(y 0).val, (y 0).isLt⟩, ⟨(y 1).val, (y 1).isLt⟩, by funext a; match a with | ⟨0, _⟩ => rfl | ⟨1, _⟩ => rfl⟩
  refine (point_apply (iblk m c 0 t) (iblk m c 1 t) (iblk m c 2 t) (iblk m c 3 t)
    (m ((c : Thread nD τ).loc main_arg0)) (m ((c : Thread nD τ).loc main_arg1)) (m ((c : Thread nD τ).loc main_arg2)) (m ((c : Thread nD τ).loc main_arg3))
    ⟨t.val, point_lt t⟩ (xblk_apply m c t) (qblk_apply m c t) (sblk_apply m c t)
    (fun b q => (cblk_apply m c t b q).trans (congrFun (hT c) _)) b q).trans ?_
  obtain ⟨-, -, -, -, -, -, -, -, e0, e1⟩ := idx_facts t
  refine congrArg _ (funext fun a => Fin.ext ?_)
  match a with
  | ⟨0, _⟩ => show b.val = win0_4.index t (0 : Fin 2) * 4 + 1 * b.val; omega
  | ⟨1, _⟩ => show 256 * t.val + q.val = win0_4.index t (1 : Fin 2) * 256 + 1 * q.val; omega

/-- An index of the output array is in point t's block iff each coordinate is in the block's range on its axis. -/
theorem mem_blk (t : Fin cfg0.N) (i : S4x11008.Idx) :
    i ∈ ((cfg0.win 4).blk t).view.set ↔ ∀ a : Fin 2, win0_4.index t a * S4x256.size a ≤ (i a).val
      ∧ (i a).val < win0_4.index t a * S4x256.size a + S4x256.size a := by
  show i ∈ ((View.whole main_v3).slice (win0_4.rect t)).set ↔ _
  rw [View.set_slice_whole, Rect.mem_set_unit]
  exact Iff.rfl

/-- The 43 blocks of 256 columns tile the 11008 columns: column n lies in the block of point n / 256. -/
theorem cover (i : S4x11008.Idx) :
    ∃ t : Fin cfg0.N, (cfg0.win 4).flush t = true ∧ i ∈ ((cfg0.win 4).blk t).view.set := by
  have hi0 : (i 0).val < 4 := (i 0).isLt
  have hi1 : (i 1).val < 11008 := (i 1).isLt
  have hN : cfg0.N = 43 := N_0
  obtain ⟨t, ht⟩ : ∃ t : Fin cfg0.N, t.val = (i 1).val / 256 := ⟨⟨(i 1).val / 256, by rw [hN]; omega⟩, rfl⟩
  obtain ⟨-, -, -, -, -, -, -, -, e0, e1⟩ := idx_facts t
  refine ⟨t, flush0_4 t, ?_⟩
  rw [mem_blk]
  intro a
  match a with
  | ⟨0, _⟩ => show win0_4.index t (0 : Fin 2) * 4 ≤ (i 0).val ∧ (i 0).val < win0_4.index t (0 : Fin 2) * 4 + 4; omega
  | ⟨1, _⟩ => show win0_4.index t (1 : Fin 2) * 256 ≤ (i 1).val ∧ (i 1).val < win0_4.index t (1 : Fin 2) * 256 + 256; omega

/-- THE OUTPUT ARRAY after the run: entry (b, n) is kerVal of row b of x and column n of the three tables. -/
theorem final
    (hT : ∀ c : Dev nD, (V m c main_v2 : S4x11008.Idx → EReal) = corrArr (m ((c : Thread nD τ).loc main_arg0)) (m ((c : Thread nD τ).loc main_arg3)))
    (c : Dev nD) :
    ((dats m 0 c).arrAt 4 cfg0.N : S4x11008.Idx → EReal)
      = Karr (m ((c : Thread nD τ).loc main_arg0)) (m ((c : Thread nD τ).loc main_arg1)) (m ((c : Thread nD τ).loc main_arg2)) (m ((c : Thread nD τ).loc main_arg3)) :=
  (dats m 0 c).arrAt_eq_of_cover 4
    (Karr (m ((c : Thread nD τ).loc main_arg0)) (m ((c : Thread nD τ).loc main_arg1)) (m ((c : Thread nD τ).loc main_arg2)) (m ((c : Thread nD τ).loc main_arg3)))
    (fun t _ => flushed_eq m hT c t) cover

/-- The run, read: the output buffer ends at the kerVal array of the arguments, the arguments unchanged. -/
theorem run
    (hT : ∀ c : Dev nD, (V m c main_v2 : S4x11008.Idx → EReal) = corrArr (m ((c : Thread nD τ).loc main_arg0)) (m ((c : Thread nD τ).loc main_arg3)))
    (ρ : Dev nD → PrngReg) :
    θ_run defs (onTc (τ := τ) (main (F := Ideal))) ⟨m, fun _ => 0, ρ⟩ fun r => ∀ c : Dev nD,
      r.2.mem ((c : Thread nD τ).loc main_v3)
        = Karr (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m hT c), (h c).2⟩) (Value.run_blocks m ρ)

end Cert.Quant

end
-- ==== Proof.lean ====
/-
  A four-bit quantized linear layer: x (4 rows of 4096 features) against a weight table of 11008 columns whose
  entries are stored eight to a 32-bit word, with one scale and one zero per group of 128 features and column.

  The reference unpacks every field, forms field · scale − zero feature by feature, and contracts x against that
  table. The kernel never forms the table: for each of the 32 groups it contracts the group's 128 features of x
  against the raw fields, multiplies that ONE number by the group's scale, adds the groups up, and subtracts a
  correction computed before its region — the sum over the groups of (the group's sum of x) · zero. It does this
  for 256 columns at a time, over 43 grid points.

  Over the real numbers the two are equal by distributivity, x · (f · s − z) = (x · f) · s − x · z, and a regrouping
  of the 4096 features as 32 groups of 128. The extended reals lack distributivity at the infinities, so the
  precondition (every entry of x, of the scales and of the zeros is finite) is USED: it makes every quantity a real
  number. The fields themselves are integers 0 … 15, read off the words the same way by both programs: an
  arithmetic shift right by 4 s and a mask with 15.

  The pieces: Spec (the value at one entry, both arrangements), Law (the two arrangements are equal for finite
  inputs), RefValue (the reference computes the first arrangement), Group / Accum / Chunk / Payload (one grid
  point's output block is the second arrangement, over the point's input blocks), HostTerm (the correction array),
  Blocks (the 43 blocks tile the output array), Finite (the precondition read back). Here they are put together:
  the kernel's run ends at the array of the second arrangement, the reference's at the array of the first, and on
  arguments that agree and are finite the two arrays are one.
-/
import proofs.«419788_j51599737094843_3_alg».proof.Defs
import proofs.«419788_j51599737094843_3_alg».proof.Proof.Gen.Kernel
import proofs.«419788_j51599737094843_3_alg».proof.Proof.Gen.Kernel.Skeleton
import proofs.«419788_j51599737094843_3_alg».proof.Proof.Gen.Kernel.Launch
import proofs.«419788_j51599737094843_3_alg».proof.Proof.Gen.Kernel.Points
import proofs.«419788_j51599737094843_3_alg».proof.Proof.Gen.Kernel.Frame
import proofs.«419788_j51599737094843_3_alg».proof.Proof.Gen.KernelIdeal
import proofs.«419788_j51599737094843_3_alg».proof.Proof.Gen.KernelIdeal.Skeleton
import proofs.«419788_j51599737094843_3_alg».proof.Proof.Gen.KernelIdeal.Launch
import proofs.«419788_j51599737094843_3_alg».proof.Proof.Gen.KernelIdeal.Points
import proofs.«419788_j51599737094843_3_alg».proof.Proof.Gen.KernelIdeal.Frame
import proofs.«419788_j51599737094843_3_alg».proof.Proof.Gen.ReferenceIdeal
import proofs.«419788_j51599737094843_3_alg».proof.Proof.Gen.Pre_finite_inputs
import proofs.«419788_j51599737094843_3_alg».proof.Proof.Gen.KernelIdeal.Value
import proofs.«419788_j51599737094843_3_alg».proof.Proof.Gen.ReferenceIdeal.Run
import proofs.«419788_j51599737094843_3_alg».proof.Proof.Gen.ReferenceIdeal.Read
import proofs.«419788_j51599737094843_3_alg».proof.Proof.Law
import proofs.«419788_j51599737094843_3_alg».proof.Proof.RefValue
import proofs.«419788_j51599737094843_3_alg».proof.Proof.Finite
import proofs.«419788_j51599737094843_3_alg».proof.Proof.HostTerm
import proofs.«419788_j51599737094843_3_alg».proof.Proof.Blocks
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference has no region: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Reading the kernel over the extended reals rewrote none of its operations. -/
theorem preserves : Cert.preserves_Kernel_KernelIdeal := trivial

/-- On finite arguments the array of the group-by-group arrangement is the array of dequantize-then-contract:
    the law, entry by entry, with the finiteness the precondition states. -/
theorem karr_eq_G (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.Quant.Karr (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
      = Cert.Quant.G (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)) := by
  obtain ⟨hx, hs, hz⟩ := Cert.Quant.finite_of_pre m hpre c
  funext i
  exact Cert.Quant.kerVal_eq_refVal _ _ _ _ (fun k => hx _) (fun g => hs _) (fun g => hz _)

/-- From memories that agree on the arguments, finite by the precondition, the two programs end with the same
    result: the kernel's is the group-by-group array (its run, block by block), the reference's the
    dequantize-then-contract array (its run, operation by operation), and the two arrays are one. -/
theorem algebraic : Cert.algebraic_KernelIdeal_ReferenceIdeal := by
  intro m ρ m' ρ' hpre hagree
  refine ⟨_, Cert.Quant.run m (Cert.Quant.V_main_v2 m) ρ, ?_⟩
  refine (θ_run Cert.ReferenceIdeal.defs _ _).mono (fun r h c => ⟨(h c).1.trans ?_, (h c).2⟩)
    (Cert.ReferenceIdeal.Value.run (F := Ideal) m' ρ')
  rw [Cert.ReferenceIdeal.Read.val_main_v20_eq, Cert.Quant.ref_eq_G, (hagree c).1, (hagree c).2.1, (hagree c).2.2.1,
    (hagree c).2.2.2]
  exact (karr_eq_G m hpre c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
